-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096x2 : Shape := ⟨3, ![256, 4096, 2]⟩
abbrev S256 : Shape := ⟨1, ![256]⟩
abbrev S256x4096x1 : Shape := ⟨3, ![256, 4096, 1]⟩
abbrev S_ : Shape := ⟨0, ![]⟩
abbrev S4096 : Shape := ⟨1, ![4096]⟩
abbrev S1x4096x1 : Shape := ⟨3, ![1, 4096, 1]⟩
abbrev S256x1x1 : Shape := ⟨3, ![256, 1, 1]⟩

class Facts : Prop where
  bcast_S_S256x4096x1 : S_.BroadcastsInDim S256x4096x1 (![] : Fin 0 → Fin S256x4096x1.rank)
  reducesTo_S256x4096x1_S_d0_1_2 : S256x4096x1.ReducesTo [0, 1, 2] S_
  h_S_ : 0 < S_.numel
  bcast_S4096_S1x4096x1_1 : S4096.BroadcastsInDim S1x4096x1 (![1] : Fin 1 → Fin S1x4096x1.rank)
  bcast_S256_S256x1x1_0 : S256.BroadcastsInDim S256x1x1 (![0] : Fin 1 → Fin S256x1x1.rank)
  bcast_S1x4096x1_S256x4096x1_0_1_2 : S1x4096x1.BroadcastsInDim S256x4096x1 (![0, 1, 2] : Fin 3 → Fin S256x4096x1.rank)
  bcast_S256x1x1_S256x4096x1_0_1_2 : S256x1x1.BroadcastsInDim S256x4096x1 (![0, 1, 2] : Fin 3 → Fin S256x4096x1.rank)
  bcast_S_S256x4096x2 : S_.BroadcastsInDim S256x4096x2 (![] : Fin 0 → Fin S256x4096x2.rank)
  bcast_S256x4096x1_S256x4096x2_0_1_2 : S256x4096x1.BroadcastsInDim S256x4096x2 (![0, 1, 2] : Fin 3 → Fin S256x4096x2.rank)
  reducesTo_S256x4096x2_S_d0_1_2 : S256x4096x2.ReducesTo [0, 1, 2] S_

variable [Facts]

def fn {F : FTy → Type} [FloatOps F] (main_arg0 : IVec S256x4096x2 32) (main_arg1 : IVec S256 32) (main_arg2 : FVec F S256x4096x1 .f32) : IVec S_ 1 :=
  let main_v0 : FVec F S256x4096x1 .f32 := Host.absf main_arg2
  let main_cst : FVec F S_ .f32 := constant S_ .f32 0x7F800000#32
  let main_v1 : FVec F S256x4096x1 .f32 := broadcastInDim S256x4096x1 ![] bcast_S_S256x4096x1 main_cst
  let main_v2 : IVec S256x4096x1 1 := cmpf .olt main_v0 main_v1
  let main_c : IVec S_ 1 := constantI S_ 1 1#1
  let main_v3 : IVec S_ 1 := (fun x v => Host.reduce IntOp.andi x v reducesTo_S256x4096x1_S_d0_1_2 h_S_) main_v2 main_c
  let main_v4 : IVec S4096 32 := iotaInDim S4096 32 0
  let main_v5 : IVec S1x4096x1 32 := broadcastInDim S1x4096x1 ![1] bcast_S4096_S1x4096x1_1 main_v4
  let main_v6 : IVec S256x1x1 32 := broadcastInDim S256x1x1 ![0] bcast_S256_S256x1x1_0 main_arg1
  let main_v7 : IVec S256x4096x1 32 := broadcastInDim S256x4096x1 ![0, 1, 2] bcast_S1x4096x1_S256x4096x1_0_1_2 main_v5
  let main_v8 : IVec S256x4096x1 32 := broadcastInDim S256x4096x1 ![0, 1, 2] bcast_S256x1x1_S256x4096x1_0_1_2 main_v6
  let main_v9 : IVec S256x4096x1 1 := cmpi .slt main_v7 main_v8
  let main_v10 : IVec S256x4096x1 1 := noti main_v9
  let main_c_0 : IVec S_ 32 := constantI S_ 32 0#32
  let main_v11 : IVec S256x4096x2 32 := broadcastInDim S256x4096x2 ![] bcast_S_S256x4096x2 main_c_0
  let main_v12 : IVec S256x4096x2 1 := cmpi .sge main_arg0 main_v11
  let main_v13 : IVec S256x4096x2 1 := broadcastInDim S256x4096x2 ![0, 1, 2] bcast_S256x4096x1_S256x4096x2_0_1_2 main_v10
  let main_v14 : IVec S256x4096x2 1 := ori main_v13 main_v12
  let main_c_1 : IVec S_ 1 := constantI S_ 1 1#1
  let main_v15 : IVec S_ 1 := (fun x v => Host.reduce IntOp.andi x v reducesTo_S256x4096x2_S_d0_1_2 h_S_) main_v14 main_c_1
  let main_v16 : IVec S_ 1 := andi main_v3 main_v15
  main_v16
-- ==== Kernel.lean ====
abbrev S256x4096x2 : Shape := ⟨3, ![256, 4096, 2]⟩
abbrev S256 : Shape := ⟨1, ![256]⟩
abbrev S256x4096x1 : Shape := ⟨3, ![256, 4096, 1]⟩
abbrev S256x4096 : Shape := ⟨2, ![256, 4096]⟩
abbrev S256x1x4096 : Shape := ⟨3, ![256, 1, 4096]⟩
abbrev S256x512x512 : Shape := ⟨3, ![256, 512, 512]⟩
abbrev S1x1x2048 : Shape := ⟨3, ![1, 1, 2048]⟩
abbrev S1x2048x1 : Shape := ⟨3, ![1, 2048, 1]⟩
abbrev S1x512x512 : Shape := ⟨3, ![1, 512, 512]⟩
abbrev S1 : Shape := ⟨1, ![1]⟩
abbrev S512x512 : Shape := ⟨2, ![512, 512]⟩
abbrev S2048x1 : Shape := ⟨2, ![2048, 1]⟩
abbrev S2048x512 : Shape := ⟨2, ![2048, 512]⟩
abbrev S1x2048 : Shape := ⟨2, ![1, 2048]⟩
abbrev S512x2048 : Shape := ⟨2, ![512, 2048]⟩

abbrev nBuf : Space → Nat
  | .hbm => 7
  | .vmem => 8
  | .smem => 1
  | _ => 0

abbrev bufTy : (tb : Table) → Fin (tcTables nBuf tb) → BufTy
  | .hbm, ⟨0, _⟩ => ⟨S256x4096x2, .i32⟩
  | .hbm, ⟨1, _⟩ => ⟨S256x4096x1, .f32⟩
  | .hbm, ⟨2, _⟩ => ⟨S256x4096x1, .i32⟩
  | .hbm, ⟨3, _⟩ => ⟨S256x4096, .i32⟩
  | .hbm, ⟨4, _⟩ => ⟨S256x1x4096, .i32⟩
  | .hbm, ⟨5, _⟩ => ⟨S256x4096x1, .i32⟩
  | .hbm, ⟨6, _⟩ => ⟨S256x512x512, .f32⟩
  | .local _ .vmem, ⟨0, _⟩ => ⟨S1x1x2048, .i32⟩
  | .local _ .vmem, ⟨1, _⟩ => ⟨S1x1x2048, .i32⟩
  | .local _ .vmem, ⟨2, _⟩ => ⟨S1x2048x1, .i32⟩
  | .local _ .vmem, ⟨3, _⟩ => ⟨S1x2048x1, .i32⟩
  | .local _ .vmem, ⟨4, _⟩ => ⟨S1x2048x1, .f32⟩
  | .local _ .vmem, ⟨5, _⟩ => ⟨S1x2048x1, .f32⟩
  | .local _ .vmem, ⟨6, _⟩ => ⟨S1x512x512, .f32⟩
  | .local _ .vmem, ⟨7, _⟩ => ⟨S1x512x512, .f32⟩
  | .local _ .smem, ⟨0, _⟩ => ⟨S256, .i32⟩
  | _, _ => ⟨S256x4096x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![256, 2], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (i : grid0.Coords) (v1 : BitVec 32) : BitVec 1 :=
  let arg1 : BitVec 32 := BitVec.ofNat 32 (i 1).val
  let c2048_i32 : BitVec 32 := 2048#32
  let v5 : BitVec 32 := Scalar.muli arg1 c2048_i32
  let v6 : BitVec 1 := Scalar.cmpi .sgt v1 v5
  let v7 : BitVec 32 := Scalar.extui v6
  let c0_i32_1 : BitVec 32 := 0#32
  let v8 : BitVec 1 := Scalar.cmpi .ne v7 c0_i32_1
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S256x4096x2_S256x4096x1_0_0_0 : S256x4096x2.Slices ![0, 0, 0] S256x4096x1
  shapeCasts_S256x4096x1_S256x4096 : S256x4096x1.ShapeCasts S256x4096
  bcast_S256x4096_S256x1x4096_0_2 : S256x4096.BroadcastsInDim S256x1x4096 (![0, 2] : Fin 2 → Fin S256x1x4096.rank)
  slices_S256x4096x2_S256x4096x1_0_0_1 : S256x4096x2.Slices ![0, 0, 1] S256x4096x1
  numel1_S1 : S1.numel = 1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  iota_S2048x1_d0_w32 : S2048x1.Iotas .tc 32 [0]
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  natLt_1_32 : 1 < 32
  iota_S2048x512_d1_w32 : S2048x512.Iotas .tc 32 [1]
  shapeCasts_S2048x1_S2048x1 : S2048x1.ShapeCasts S2048x1
  broadcasts_S2048x1_S2048x512 : S2048x1.Broadcasts S2048x512
  bitsLt_bf16_f32 : FTy.bits .bf16 < FTy.bits .f32
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  iota_S512x2048_d0_w32 : S512x2048.Iotas .tc 32 [0]
  broadcasts_S1x2048_S512x2048 : S1x2048.Broadcasts S512x2048
  dot_S512x2048_S2048x512_S512x512_1_0_0_1_n_n_wf : DotDims.WF S512x2048 S2048x512 S512x512 [1] [0] [0] [1] [] []
  hrank0 : 0 < grid0.rank
  k0_off1_inb : ∀ i : grid0.Coords, ∀ a, (k0_off1 i) a + S1.size a ≤ S256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048.size a ≤ S256x1x4096.size a
  hwx0_0 : ∀ i : grid0.Coords, EltTy.bits .i32 = 32 ∨ (Rect.block (s := S256x1x4096) S1x1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S256x4096x1.size a
  hwx0_1 : ∀ i : grid0.Coords, EltTy.bits .i32 = 32 ∨ (Rect.block (s := S256x4096x1) S1x2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S256x4096x1.size a
  hwx0_2 : ∀ i : grid0.Coords, EltTy.bits .f32 = 32 ∨ (Rect.block (s := S256x4096x1) S1x2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S256x512x512.size a
  hwx0_3 : ∀ i : grid0.Coords, EltTy.bits .f32 = 32 ∨ (Rect.block (s := S256x512x512) S1x512x512.size (cc0_transform_3 i) (hinb0_3 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev spec0_0 : Pipeline.WinSpec sig grid0.rank :=
  Pipeline.WinSpec.ofSpec (Memref.whole main_v2) S1x1x2048.size reads0_0 false false 2 stage0_0 sem0_0 nbuf0_0 hstage0_0

abbrev spec0_1 : Pipeline.WinSpec sig grid0.rank :=
  Pipeline.WinSpec.ofSpec (Memref.whole main_v3) S1x2048x1.size reads0_1 false false 2 stage0_1 sem0_1 nbuf0_1 hstage0_1

abbrev spec0_2 : Pipeline.WinSpec sig grid0.rank :=
  Pipeline.WinSpec.ofSpec (Memref.whole main_arg2) S1x2048x1.size reads0_2 false false 2 stage0_2 sem0_2 nbuf0_2 hstage0_2

abbrev spec0_3 : Pipeline.WinSpec sig grid0.rank :=
  Pipeline.WinSpec.ofSpec (Memref.whole main_v4) S1x512x512.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))
abbrev idle0 (pf : pre0.Contents (Elt F)) : Fin 4 → grid0.Coords → Bool := fun | 0 => fun _ => false | 1 => fun _ => false | 2 => fun _ => false | 3 => fun i => !(k0_cond1 i == 1#1) && !(k0_cond2 i (pf.atD 0 (k0_off1 i)) == 1#1) | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S256x4096x2 : Shape := ⟨3, ![256, 4096, 2]⟩
abbrev S256 : Shape := ⟨1, ![256]⟩
abbrev S256x4096x1 : Shape := ⟨3, ![256, 4096, 1]⟩
abbrev S4096 : Shape := ⟨1, ![4096]⟩
abbrev S1x4096 : Shape := ⟨2, ![1, 4096]⟩
abbrev S256x1 : Shape := ⟨2, ![256, 1]⟩
abbrev S256x4096 : Shape := ⟨2, ![256, 4096]⟩
abbrev S_ : Shape := ⟨0, ![]⟩
abbrev S256x512x512 : Shape := ⟨3, ![256, 512, 512]⟩
abbrev S256x4096x3 : Shape := ⟨3, ![256, 4096, 3]⟩

abbrev nBuf : Space → Nat
  | .hbm => 53
  | .vmem => 0
  | .smem => 0
  | _ => 0

abbrev bufTy : (tb : Table) → Fin (tcTables nBuf tb) → BufTy
  | .hbm, ⟨0, _⟩ => ⟨S256x4096x2, .i32⟩
  | .hbm, ⟨1, _⟩ => ⟨S256, .i32⟩
  | .hbm, ⟨2, _⟩ => ⟨S256x4096x1, .f32⟩
  | .hbm, ⟨3, _⟩ => ⟨S4096, .i32⟩
  | .hbm, ⟨4, _⟩ => ⟨S1x4096, .i32⟩
  | .hbm, ⟨5, _⟩ => ⟨S256x1, .i32⟩
  | .hbm, ⟨6, _⟩ => ⟨S256x4096, .i32⟩
  | .hbm, ⟨7, _⟩ => ⟨S256x4096, .i32⟩
  | .hbm, ⟨8, _⟩ => ⟨S256x4096, .i1⟩
  | .hbm, ⟨9, _⟩ => ⟨S256x4096, .f32⟩
  | .hbm, ⟨10, _⟩ => ⟨S256x4096, .f32⟩
  | .hbm, ⟨11, _⟩ => ⟨S256x4096, .f32⟩
  | .hbm, ⟨12, _⟩ => ⟨S256x4096x1, .i1⟩
  | .hbm, ⟨13, _⟩ => ⟨S_, .i32⟩
  | .hbm, ⟨14, _⟩ => ⟨S_, .i32⟩
  | .hbm, ⟨15, _⟩ => ⟨S256x4096x2, .i1⟩
  | .hbm, ⟨16, _⟩ => ⟨S256x4096x2, .i32⟩
  | .hbm, ⟨17, _⟩ => ⟨S256x4096x2, .i32⟩
  | .hbm, ⟨18, _⟩ => ⟨S256, .i32⟩
  | .hbm, ⟨19, _⟩ => ⟨S256x1, .i32⟩
  | .hbm, ⟨20, _⟩ => ⟨S256x4096, .i32⟩
  | .hbm, ⟨21, _⟩ => ⟨S_, .f32⟩
  | .hbm, ⟨22, _⟩ => ⟨S256x512x512, .f32⟩
  | .hbm, ⟨23, _⟩ => ⟨S256x4096x1, .i32⟩
  | .hbm, ⟨24, _⟩ => ⟨S256x4096, .i32⟩
  | .hbm, ⟨25, _⟩ => ⟨S256x4096x1, .i32⟩
  | .hbm, ⟨26, _⟩ => ⟨S256x4096, .i32⟩
  | .hbm, ⟨27, _⟩ => ⟨S_, .i32⟩
  | .hbm, ⟨28, _⟩ => ⟨S256x4096, .i32⟩
  | .hbm, ⟨29, _⟩ => ⟨S256x4096, .i1⟩
  | .hbm, ⟨30, _⟩ => ⟨S_, .i32⟩
  | .hbm, ⟨31, _⟩ => ⟨S256x4096, .i32⟩
  | .hbm, ⟨32, _⟩ => ⟨S256x4096, .i32⟩
  | .hbm, ⟨33, _⟩ => ⟨S256x4096, .i32⟩
  | .hbm, ⟨34, _⟩ => ⟨S_, .i32⟩
  | .hbm, ⟨35, _⟩ => ⟨S256x4096, .i32⟩
  | .hbm, ⟨36, _⟩ => ⟨S256x4096, .i1⟩
  | .hbm, ⟨37, _⟩ => ⟨S_, .i32⟩
  | .hbm, ⟨38, _⟩ => ⟨S256x4096, .i32⟩
  | .hbm, ⟨39, _⟩ => ⟨S256x4096, .i32⟩
  | .hbm, ⟨40, _⟩ => ⟨S256x4096, .i32⟩
  | .hbm, ⟨41, _⟩ => ⟨S_, .i32⟩
  | .hbm, ⟨42, _⟩ => ⟨S256x4096, .i32⟩
  | .hbm, ⟨43, _⟩ => ⟨S256x4096, .i1⟩
  | .hbm, ⟨44, _⟩ => ⟨S_, .i32⟩
  | .hbm, ⟨45, _⟩ => ⟨S256x4096, .i32⟩
  | .hbm, ⟨46, _⟩ => ⟨S256x4096, .i32⟩
  | .hbm, ⟨47, _⟩ => ⟨S256x4096, .i32⟩
  | .hbm, ⟨48, _⟩ => ⟨S256x4096x1, .i32⟩
  | .hbm, ⟨49, _⟩ => ⟨S256x4096x1, .i32⟩
  | .hbm, ⟨50, _⟩ => ⟨S256x4096x1, .i32⟩
  | .hbm, ⟨51, _⟩ => ⟨S256x4096x3, .i32⟩
  | .hbm, ⟨52, _⟩ => ⟨S256x512x512, .f32⟩
  | _, _ => ⟨S256x4096x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_0 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S256_S256x1_0 : S256.BroadcastsInDim S256x1 (![0] : Fin 1 → Fin S256x1.rank)
  bcast_S1x4096_S256x4096_0_1 : S1x4096.BroadcastsInDim S256x4096 (![0, 1] : Fin 2 → Fin S256x4096.rank)
  bcast_S256x1_S256x4096_0_1 : S256x1.BroadcastsInDim S256x4096 (![0, 1] : Fin 2 → Fin S256x4096.rank)
  shapeCasts_S256x4096x1_S256x4096 : S256x4096x1.ShapeCasts S256x4096
  bcast_S256x4096_S256x4096x1_0_1 : S256x4096.BroadcastsInDim S256x4096x1 (![0, 1] : Fin 2 → Fin S256x4096x1.rank)
  bcast_S256x4096x1_S256x4096x2_0_1_2 : S256x4096x1.BroadcastsInDim S256x4096x2 (![0, 1, 2] : Fin 3 → Fin S256x4096x2.rank)
  bcast_S_S256x4096x2 : S_.BroadcastsInDim S256x4096x2 (![] : Fin 0 → Fin S256x4096x2.rank)
  bcast_S_S256x512x512 : S_.BroadcastsInDim S256x512x512 (![] : Fin 0 → Fin S256x512x512.rank)
  slices_S256x4096x2_S256x4096x1_0_0_0 : S256x4096x2.Slices ![0, 0, 0] S256x4096x1
  slices_S256x4096x2_S256x4096x1_0_0_1 : S256x4096x2.Slices ![0, 0, 1] S256x4096x1
  bcast_S_S256x4096 : S_.BroadcastsInDim S256x4096 (![] : Fin 0 → Fin S256x4096.rank)
  concatenates_S256x4096x1_S256x4096x1_S256x4096x1_S256x4096x3_d2 : Shape.Concatenates [S256x4096x1, S256x4096x1, S256x4096x1] S256x4096x3 2
  scatter_S256x512x512_S256x4096x3_S256x4096_n_012_012_2_wf : ScatterDims.WF S256x512x512 S256x4096x3 S256x4096 [] [0, 1, 2] [0, 1, 2] 2

variable [Facts₀]

def scatter_S256x512x512_S256x4096x3_S256x4096_n_012_012_2 : ScatterDims S256x512x512 S256x4096x3 S256x4096 where
  updateWindowDims := []
  insertedWindowDims := [0, 1, 2]
  scatterDimsToOperandDims := [0, 1, 2]
  indexVectorDim := 2
  wf := scatter_S256x512x512_S256x4096x3_S256x4096_n_012_012_2_wf

class Facts : Prop extends Facts₀ where

variable [Facts]
-- ==== Proof.KbKit.lean ====
/-
  The launch side of the kernel program's frame, for the one pallas_call of @main.

  @main slices the coordinate pairs into a row array `[256, 1, 4096]` and a column array `[256, 4096, 1]`
  (four host operations) and then enters the region. The region's grid is `256 × 2`: point `t` handles
  tile `t % 2` of sample `t / 2`. Three input windows (the row, column and feature blocks of the tile) are
  fetched at every point; the output window is the sample's `512 × 512` plane, the same block at both
  points of a sample, so it is written back at the odd points only and carried from the even point to the
  odd one in between. The count of valid points is a prefetched table in scalar memory, which the body
  reads one word of and the index maps do not read at all — so the pipeline's side condition on the table
  is empty and every contents of it is admissible.

  Stated here: the buffers' contents when the region is entered; that @main reduces to the region there; the
  table as the region holds it; each window's block, current staging memref, and the body as the region
  calls it; that an input's staging buffer holds its block at every point; the two facts of the schedule
  decided over the 512 points (the reset branch is taken exactly at the even points, the plane is written
  back exactly at the odd ones); and the frame claim's post read off the frame run's.
-/
import proofs.«424259_j87522843560476_3_alg».proof.Proof.Gen.Kernel.Launch
import proofs.«424259_j87522843560476_3_alg».proof.Proof.Gen.Kernel.Skeleton
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the four slicing operations. -/
abbrev V (c : Dev nD) (b : Ref sig .tc) : Buf (Elt F) ((c : Thread nD τ).loc b) :=
  StableHlo.after hostOps0 (fun b => m (c, b)) b

/-- None of the four operations allocates a buffer. -/
theorem hostOps0_fresh : (hostOps0 : List (HloOp τ sig (Elt F))).Forall fun op => op.fresh = ∅ := by
  simp only [List.Forall]; repeat' constructor

/-- @main is the four operations and then the region. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer none of the four operations writes is found as launched. The operations write `main_v0` … `main_v3`. -/
theorem V_unwritten (c : Dev nD) (r : Ref sig .tc) (h0 : r ≠ main_v0) (h1 : r ≠ main_v1) (h2 : r ≠ main_v2) (h3 : r ≠ main_v3) :
    V m c r = m ((c : Thread nD τ).loc r) :=
  StableHlo.after_of_forall_not_mem (b := Proc.devRef .tc r) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

theorem V_main_arg0 (c : Dev nD) : V m c main_arg0 = m ((c : Thread nD τ).loc main_arg0) :=
  V_unwritten m c main_arg0 (by decide) (by decide) (by decide) (by decide)
theorem V_main_arg1 (c : Dev nD) : V m c main_arg1 = m ((c : Thread nD τ).loc main_arg1) :=
  V_unwritten m c main_arg1 (by decide) (by decide) (by decide) (by decide)
theorem V_main_arg2 (c : Dev nD) : V m c main_arg2 = m ((c : Thread nD τ).loc main_arg2) :=
  V_unwritten m c main_arg2 (by decide) (by decide) (by decide) (by decide)

/-! ## The table of counts -/

/-- The table's contents when the region is entered (there is one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- Every contents of the table is admissible: no index map reads it. -/
abbrev adm : (pcfg0 (F := F)).Adm := ⟨tbl m, trivial⟩
/-- The pipeline at the table's contents. -/
abbrev cfgM : Pipeline.Cfg sig Λ₀ := cfg0 (adm m)

/-- The table as the body is handed it: the whole scalar-memory buffer. -/
abbrev tbM : Memref sig .tc .smem S256 .i32 := Memref.whole main_arg1
abbrev htbM : tbM.IsWhole := Memref.isWhole_whole _
/-- Its contents type on core `c`, and the half share of it the region lends the body, at contents `f`. -/
abbrev TbBuf (c : Dev nD) : Type := Buf (Elt F) (tbM.view.loc (c : Thread nD τ))
abbrev tbPt (c : Dev nD) (f : TbBuf (F := F) c) : sProp 𝕄 :=
  tbM.view.loc (c : Thread nD τ) ↦{fullShare.right} f

/-- What the region holds of the table between points is that one half share. -/
theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## Blocks, staging memrefs, the body at a point -/

/-- Window `w`'s block at point `t`, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- Each window's current staging memref at point `t`, as the region passes it to the body, and its wholeness. -/
abbrev ms0 (t : Fin (cfgM m).N) : Memref sig .tc .vmem S1x1x2048 .i32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x2048x1 .i32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x2048x1 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x512x512 .f32 := spec0_3.stage ((cfgM m).slots t 3)
abbrev hs3 (t : Fin (cfgM m).N) : (ms3 m t).IsWhole := hstage0_3 (((cfgM m).slots t 3).cast nbuf0_3)

/-- The kernel body at point `t`, on what the region calls it with. -/
abbrev bodyAt (t : Fin (cfgM m).N) : Prog (TpuEff nD τ sig (Elt F) Λ₀ .tc) PUnit :=
  cc0__scatter_kernel (grid0.coords t) tbM htbM (ms0 m t) (hs0 m t) (ms1 m t) (hs1 m t) (ms2 m t) (hs2 m t) (ms3 m t) (hs3 m t)

/-! ## The schedule, decided over the 512 points -/

/-- The reset branch's condition holds exactly at the even points (tile 0 of each sample). -/
theorem hcond1 : ∀ t : Fin (cfgM m).N, k0_cond1 (grid0.coords t) = 1#1 ↔ t.val % 2 = 0 :=
  (by decide +kernel : ∀ t : Fin grid0.N, k0_cond1 (grid0.coords t) = 1#1 ↔ t.val % 2 = 0)

/-- The plane is written back exactly at the odd points (after tile 1 of each sample). -/
theorem flush3 : ∀ t : Fin (cfgM m).N, ((cfgM m).win 3).flush t = true ↔ t.val % 2 = 1 :=
  (by decide +kernel : ∀ t : Fin grid0.N, Pipeline.Window.flushOf grid0 true cc0_transform_3 t = true ↔ t.val % 2 = 1)

/-! ## An input's staging buffer holds its block -/

section Inputs
variable {m}
variable {c : Dev nD} (dat : Dat τ (Elt F) Unit ℕ (UR sig nD τ) ℕ (cfgM m) c)

/-- An input window's current staging buffer holds its block at every point, fetched there or not, for any proof
    data whose array is the region-entry contents and whose body leaves the block in place. -/
theorem before_in0 (hA : dat.A 0 = V m c (Pipeline.arrRef spec0 0)) (hafter : ∀ t, dat.after 0 t = iblk m c 0 t)
    (t : Fin (cfgM m).N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_in1 (hA : dat.A 1 = V m c (Pipeline.arrRef spec0 1)) (hafter : ∀ t, dat.after 1 t = iblk m c 1 t)
    (t : Fin (cfgM m).N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_in2 (hA : dat.A 2 = V m c (Pipeline.arrRef spec0 2)) (hafter : ∀ t, dat.after 2 t = iblk m c 2 t)
    (t : Fin (cfgM m).N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)

end Inputs

/-! ## The frame claim's post from the frame run's -/

/-- For any proof data whose arrays are the region-entry contents, a run to the frame run's post, read at the three
    argument arrays — the features through their window, the coordinate pairs and the counts as buffers the
    region does not stage — is the frame claim's post. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (by decide : main_arg0 ∈ Pipeline.restRefs sig spec0)).trans (V_main_arg0 m c),
     ((h c).2 main_arg1 (by decide : main_arg1 ∈ Pipeline.restRefs sig spec0)).trans (V_main_arg1 m c),
     ((h c).1 2).trans (((dats 0 c).arrAt_in 2 rfl _).trans ((hA c 2).trans (V_main_arg2 m c)))⟩) h

end Cert.Kernel.Hand

end
-- ==== Proof.KbStep.lean ====
/-
  One step of the plane: what the kernel body leaves in the plane's staging buffer, as a function of what it reads.

  The body reads the sample's count from the table and then does two independent things: on the sample's first
  tile it overwrites the plane with zeros; when the count exceeds the tile's first position it stores the plane
  plus the tile's product. So the plane after the body is the plane it found — zeros instead, after a reset —
  with the tile added when the tile is not skipped.
-/
import proofs.«424259_j87522843560476_3_alg».proof.Proof.KbKit

noncomputable section

namespace Cert.Kernel.Hand

open Idealize.ShloMosaic Idealize.ShloMosaic.TcCoe
open Idealize.SL Idealize.SL.Sem
open Cert.Kernel Cert.Kernel.Gen

variable {F : FTy → Type} [FloatOps F]

/-- The count word the body loads at point `i`, from the table held at contents `xt`: the word of sample `i 0`. -/
abbrev word (c : Dev nD) (i : grid0.Coords) (xt : TbBuf (F := F) c) : Elt F .i32 :=
  tbM.view.readAt (Elt F) (Rect.unit (s := S256) (k0_off1 i) S1.size (k0_off1_inb i)).toLoadRect xt
    (Shape.Idx.first (numel1_S1.symm ▸ Nat.one_pos))

/-- What the body leaves in the plane's staging buffer, from the point, the count word, the tile's three blocks and
    what the buffer held: zeros in place of what it held when the reset branch is taken, and the tile's accumulating
    store over that when the tile is not skipped. -/
def stepOut (i : grid0.Coords) (v : Elt F .i32) (xrow : Vec F S1x1x2048 .i32) (xcol : Vec F S1x2048x1 .i32)
    (xfeat : Vec F S1x2048x1 .f32) (prev : Vec F S1x512x512 .f32) : Vec F S1x512x512 .f32 :=
  if k0_cond2 i v = 1#1 then
    k0_pay2 i v xfeat xcol xrow (if k0_cond1 i = 1#1 then k0_pay1 (F := F) else prev)
  else (if k0_cond1 i = 1#1 then k0_pay1 (F := F) else prev)

end Cert.Kernel.Hand

end
-- ==== Proof.KbData.lean ====
/-
  What the region's buffers hold, point by point.

  The inputs' staging buffers hold their blocks. The plane's staging buffer is the interesting one. Point
  `2 * s` is the first tile of sample `s`: the body resets the plane there, so what the buffer held before does
  not matter, and leaves the first tile's plane. Point `2 * s + 1` is the second tile: the buffer has not
  been written back in between, so the body finds the first tile's plane and leaves it with the second tile
  added (or as it found it, when the second tile is skipped). That point writes the block back. So the plane
  after point `t` is one step of `stepOut` over the plane after point `t - 1` — at an even point over anything.
-/
import proofs.«424259_j87522843560476_3_alg».proof.Proof.KbStep

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The count word the body loads at point `t`, off the table as the region holds it. -/
abbrev wordAt (c : Dev nD) (t : Fin (cfgM m).N) : Elt F .i32 := word c (grid0.coords t) (tbl m 0)

/-- When the reset branch is taken, what the plane's buffer held before does not matter. -/
theorem stepOut_reset (i : grid0.Coords) (v : Elt F .i32) (xrow : Vec F S1x1x2048 .i32) (xcol : Vec F S1x2048x1 .i32)
    (xfeat : Vec F S1x2048x1 .f32) (prev prev' : Vec F S1x512x512 .f32) (h1 : k0_cond1 i = 1#1) :
    stepOut i v xrow xcol xfeat prev = stepOut i v xrow xcol xfeat prev' := by
  unfold stepOut; rw [if_pos h1, if_pos h1]

/-- The plane's staging buffer after the body at position `n`: one step over what position `n - 1` left (at
    position 0 over the plane of zeros: the reset branch is taken there and ignores it). -/
def planeAt (c : Dev nD) : (n : ℕ) → n < (cfgM m).N → Vec F S1x512x512 .f32
  | 0, hn => stepOut (grid0.coords ⟨0, hn⟩) (wordAt m c ⟨0, hn⟩) (iblk m c 0 ⟨0, hn⟩) (iblk m c 1 ⟨0, hn⟩) (iblk m c 2 ⟨0, hn⟩)
      (k0_pay1 (F := F))
  | n + 1, hn => stepOut (grid0.coords ⟨n + 1, hn⟩) (wordAt m c ⟨n + 1, hn⟩) (iblk m c 0 ⟨n + 1, hn⟩) (iblk m c 1 ⟨n + 1, hn⟩)
      (iblk m c 2 ⟨n + 1, hn⟩) (planeAt c n (Nat.lt_of_succ_lt hn))

/-- At a later point: one step over the point before. -/
theorem planeAt_pos (c : Dev nD) (t : Fin (cfgM m).N) (ht : t.val ≠ 0) :
    planeAt m c t.val t.isLt = stepOut (grid0.coords t) (wordAt m c t) (iblk m c 0 t) (iblk m c 1 t) (iblk m c 2 t)
      (planeAt m c (t.val - 1) (Nat.lt_of_le_of_lt (Nat.sub_le _ _) t.isLt)) := by
  obtain ⟨n, hn⟩ := t
  cases n with
  | zero => exact absurd rfl ht
  | succ n => rfl

/-- At an even point: one step over anything. -/
theorem planeAt_even (c : Dev nD) (t : Fin (cfgM m).N) (ht : t.val % 2 = 0) (prev : Vec F S1x512x512 .f32) :
    planeAt m c t.val t.isLt = stepOut (grid0.coords t) (wordAt m c t) (iblk m c 0 t) (iblk m c 1 t) (iblk m c 2 t) prev := by
  have h1 : k0_cond1 (grid0.coords t) = 1#1 := (hcond1 m t).mpr ht
  obtain ⟨n, hn⟩ := t
  cases n with
  | zero => exact stepOut_reset _ _ _ _ _ _ _ h1
  | succ n => exact stepOut_reset _ _ _ _ _ _ _ h1

/-! ## The proof data -/

/-- The proof data of the pipeline on core `c`: the arrays as the region finds them; after the body each input's
    buffer at its block and the plane's at `planeAt`; between points the region's own invariant and its half of the
    table; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => planeAt m c t.val t.isLt
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; rfl
theorem after1 (c : Dev nD) (t : Fin (cfgM m).N) : (dats m 0 c).after 1 t = iblk m c 1 t := by dsimp only [dats]; rfl
theorem after2 (c : Dev nD) (t : Fin (cfgM m).N) : (dats m 0 c).after 2 t = iblk m c 2 t := by dsimp only [dats]; rfl
theorem after3 (c : Dev nD) (t : Fin (cfgM m).N) : (dats m 0 c).after 3 t = planeAt m c t.val t.isLt := by dsimp only [dats]; rfl

theorem before0 (c : Dev nD) (t : Fin (cfgM m).N) (d) : (dats m 0 c).before 0 t d = iblk m c 0 t :=
  before_in0 (dats m 0 c) (A_eq m c 0) (after0 m c) t d
theorem before1 (c : Dev nD) (t : Fin (cfgM m).N) (d) : (dats m 0 c).before 1 t d = iblk m c 1 t :=
  before_in1 (dats m 0 c) (A_eq m c 1) (after1 m c) t d
theorem before2 (c : Dev nD) (t : Fin (cfgM m).N) (d) : (dats m 0 c).before 2 t d = iblk m c 2 t :=
  before_in2 (dats m 0 c) (A_eq m c 2) (after2 m c) t d

/-- The plane's window is live (not idle) wherever the reset branch is taken. -/
theorem live3_of_reset (i : grid0.Coords) (h1 : k0_cond1 i = 1#1) : (cfgM m).idle 3 i = false := by
  show (!(k0_cond1 i == 1#1) && !(k0_cond2 i ((tbl m).atD 0 (k0_off1 i)) == 1#1)) = false
  rw [h1]; rfl

/-- At an odd point the plane's buffer holds what the body left at the even point before: it is not the first
    point, the buffer was not written back in between, the even point is live for the window, and the window's
    blocks are whole. -/
theorem before3_odd (c : Dev nD) (t : Fin (cfgM m).N) (ht : t.val % 2 = 1) (d) :
    (dats m 0 c).before 3 t d = planeAt m c (t.val - 1) (Nat.lt_of_le_of_lt (Nat.sub_le _ _) t.isLt) := by
  have ht0 : t.val ≠ 0 := by omega
  have hfl : ((cfgM m).win 3).flush ⟨t.val - 1, Nat.lt_of_le_of_lt (Nat.sub_le _ _) t.isLt⟩ = false :=
    Bool.eq_false_iff.mpr fun h => by have := (flush3 m _).mp h; dsimp only at this; omega
  have hlive : (cfgM m).idle 3 ((cfgM m).grid.coords ⟨t.val - 1, Nat.lt_of_le_of_lt (Nat.sub_le _ _) t.isLt⟩) = false :=
    live3_of_reset m _ ((hcond1 m _).mpr (by dsimp only; omega))
  rw [(dats m 0 c).before_of_pos 3 t ht0 (((cfgM m).win 3).fetch_out rfl t), hfl, if_neg Bool.false_ne_true]
  unfold Dat.left
  rw [hlive]
  unfold Dat.kept
  rw [Pipeline.fill_of_clip_none 3 _ (fun _ => rfl) d ((dats m 0 c).after 3 _), Window.fill_cut]
  dsimp only [dats]; rfl

end Cert.Kernel.Hand

end
-- ==== Proof.LibReadBack.lean ====
/-
  A whole-buffer load after whole-buffer stores. When the last of a sequence of stores into a buffer wrote the whole
  buffer (through the whole-shape rectangle at zero offsets), a load of the whole buffer afterwards reads exactly that
  last store's value, whatever the earlier stores wrote: an accumulator that is rewritten whole, step after step, reads
  back its latest value.
-/
import Idealize.ShloMosaic.Lib.Pipeline.Value

noncomputable section

namespace Idealize.ShloMosaic.View

variable {Val : EltTy → Type} {S : Shape} {e : EltTy}

/-- A load through the whole-shape rectangle of what a LAST store through it left, whatever the earlier stores
    were, reads that store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.KbRun.lean ====
/-
  The kernel body, run once on whole staging memrefs.

  The body reads the sample's count from the table, then does two independent things. If this is the sample's
  first tile it overwrites the plane with zeros. If the count exceeds the tile's first position it loads the
  tile's feature, column and row blocks and the plane, and stores the plane plus the tile's product back. The
  inputs' memrefs and the table are only read. So whatever the two conditions are, the body ends with the
  inputs and the table as they were and the plane at `stepOut`: the plane it found, or zeros after a reset,
  with the tile added when the tile is not skipped.
-/
import proofs.«424259_j87522843560476_3_alg».proof.Proof.KbStep
import proofs.«424259_j87522843560476_3_alg».proof.Proof.LibReadBack

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Three zero offsets, as the body's accesses spell them, are the constant zero. -/
theorem hz3 : (![0, 0, 0] : Fin 3 → Nat) = fun _ => 0 := by
  funext a; fin_cases a <;> rfl

section ReadBack

variable {Val : EltTy → Type} [∀ e, Nonempty (Val e)] {sg : RefSig} {κ : Kind} {sp : Space} {S : Shape} {e : EltTy}

/-- After a last store through the whole-shape rectangle at zero offsets, the buffer reads that store's payload,
    whatever it held and whatever was stored before. -/
theorem read_writes_cons_whole (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole-shape rectangle at zero offsets reads what the view reads. -/
theorem readAt_whole (v : View sg κ sp S e) (f : v.ty.Contents Val) {off : Fin S.rank → Nat}
    (h : off = fun _ => 0) (inb : ∀ a, off a + S.size a ≤ S.size a) :
    v.readAt Val (Rect.unit off S.size inb).toLoadRect f = v.read Val f := by
  rw [View.readAt_eq_ld, View.ld_unit_zero h]

end ReadBack

/-- The body on whole staging memrefs at given contents, the table at half share: it runs to the continuation
    holding the inputs and the table as they were and the plane's buffer at `stepOut`. -/
theorem body_run (c : Dev nD) (i : grid0.Coords)
    (a3 : Memref sig .tc .vmem S1x1x2048 .i32) (h3 : a3.IsWhole) (a4 : Memref sig .tc .vmem S1x2048x1 .i32) (h4 : a4.IsWhole)
    (a5 : Memref sig .tc .vmem S1x2048x1 .f32) (h5 : a5.IsWhole) (a6 : Memref sig .tc .vmem S1x512x512 .f32) (h6 : a6.IsWhole)
    (xrow : Vec F S1x1x2048 .i32) (xcol : Vec F S1x2048x1 .i32) (xfeat : Vec F S1x2048x1 .f32) (prev : Vec F S1x512x512 .f32)
    (xt : TbBuf (F := F) c) (E : Set ℕ) (K : PUnit → sProp 𝕄) :
    iprop(owns (c : Thread nD τ) a3 fullShare xrow ∗ owns (c : Thread nD τ) a4 fullShare xcol
        ∗ owns (c : Thread nD τ) a5 fullShare xfeat ∗ owns (c : Thread nD τ) a6 fullShare prev ∗ tbPt c xt
        ∗ (iprop(owns (c : Thread nD τ) a3 fullShare xrow ∗ owns (c : Thread nD τ) a4 fullShare xcol
            ∗ owns (c : Thread nD τ) a5 fullShare xfeat
            ∗ owns (c : Thread nD τ) a6 fullShare (stepOut i (word c i xt) xrow xcol xfeat prev) ∗ tbPt c xt) -∗ K ⟨⟩))
      ⊢ wp frame (wpE (defs₀ (F := F)) Variants.none c none) E
          (cc0__scatter_kernel i tbM htbM a3 h3 a4 h4 a5 h5 a6 h6) K := by
  simp only [cc0__scatter_kernel_eq_skeleton]; unfold cc0__scatter_kernel_skel
  unfold owns
  iintro ⟨⟨%f3, %hf3, H3⟩, ⟨%f4, %hf4, H4⟩, ⟨%f5, %hf5, H5⟩, ⟨%f6, %hf6, H6⟩, HT, Hk⟩
  obtain rfl := h3.eq_unread hf3
  obtain rfl := h4.eq_unread hf4
  obtain rfl := h5.eq_unread hf5
  obtain rfl := h6.eq_unread hf6
  by_cases hc1 : k0_cond1 i = 1#1 <;> by_cases hc2 : k0_cond2 i (word c i xt) = 1#1
  · sl_exec (disch := first | sl_exact hc1 | sl_exact hc2)
    sl_step
    iapply Hk
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; swap; · iexact H6
      ipureintro
      unfold stepOut
      rw [if_pos hc2, if_pos hc1]
      sl_unfold_run_names
      rw [read_writes_cons_whole (S := S1x512x512) _ _ hz3, View.readCov_unit_zero (S := S1x512x512) _ hz3,
        readAt_whole (S := S1x2048x1) a5.view _ hz3, readAt_whole (S := S1x2048x1) a4.view _ hz3,
        readAt_whole (S := S1x1x2048) a3.view _ hz3, hf3, hf4, hf5]
    iexact HT
  · sl_exec (disch := first | sl_exact hc1 | sl_exact hc2)
    sl_step
    iapply Hk
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; swap; · iexact H6
      ipureintro
      unfold stepOut
      rw [if_neg hc2, if_pos hc1]
      sl_unfold_run_names
      rw [read_writes_cons_whole (S := S1x512x512) _ _ hz3]
    iexact HT
  · sl_exec (disch := first | sl_exact hc1 | sl_exact hc2)
    sl_step
    iapply Hk
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; swap; · iexact H6
      ipureintro
      unfold stepOut
      rw [if_pos hc2, if_neg hc1]
      sl_unfold_run_names
      rw [read_writes_cons_whole (S := S1x512x512) _ _ hz3,
        readAt_whole (S := S1x2048x1) a5.view _ hz3, readAt_whole (S := S1x2048x1) a4.view _ hz3,
        readAt_whole (S := S1x1x2048) a3.view _ hz3, readAt_whole (S := S1x512x512) a6.view _ hz3, hf3, hf4, hf5, hf6]
    iexact HT
  · sl_exec (disch := first | sl_exact hc1 | sl_exact hc2)
    sl_step
    iapply Hk
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; swap; · iexact H6
      ipureintro
      unfold stepOut
      rw [if_neg hc2, if_neg hc1]
      exact hf6
    iexact HT

end Cert.Kernel.Hand

end
-- ==== Proof.KbBody.lean ====
/-
  The body obligation: at every point the kernel body takes the region's buffers from what they hold before it
  to what the proof data says they hold after it.

  Before the body the three inputs' buffers hold their blocks and the plane's buffer holds something `X`; the body
  leaves the inputs and the table alone and the plane at one step over `X`. At an even point that step does not
  depend on `X`; at an odd point `X` is the plane the even point left. Either way the result is the plane the
  proof data names. The plane's window is idle only where neither branch stores, which can only be an odd point,
  and an odd point writes the block back, so the named plane is what the obligation asks for there too.
-/
import proofs.«424259_j87522843560476_3_alg».proof.Proof.KbData
import proofs.«424259_j87522843560476_3_alg».proof.Proof.KbRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The plane after point `t` is one step over whatever the plane's buffer holds before the body there. -/
theorem plane_step (c : Dev nD) (t : Fin (cfgM m).N) (d) :
    planeAt m c t.val t.isLt = stepOut (grid0.coords t) (wordAt m c t) (iblk m c 0 t) (iblk m c 1 t) (iblk m c 2 t)
      ((dats m 0 c).before 3 t d) := by
  rcases Nat.mod_two_eq_zero_or_one t.val with h | h
  · exact planeAt_even m c t h _
  · rw [before3_odd m c t h d]
    exact planeAt_pos m c t (by omega)

/-- The same contents, the same ownership. -/
theorem owns_of_eq {c : Dev nD} {S : Shape} {e : EltTy} (M : Memref sig .tc .vmem S e) {X Y : Vec F S e} (h : X = Y) :
    owns (c : Thread nD τ) M fullShare X ⊢ (owns (c : Thread nD τ) M fullShare Y : sProp 𝕄) := by
  subst h; exact .rfl

/-- The named plane is what the obligation asks of the plane's buffer, idle point or not. -/
theorem leaves3 (c : Dev nD) (t : Fin (cfgM m).N) :
    owns (c : Thread nD τ) (ms3 m t) fullShare ((dats m 0 c).after 3 t) ⊢ ((dats m 0 c).leavesExact 3 t : sProp 𝕄) := by
  unfold Dat.leavesExact
  by_cases h1 : k0_cond1 (grid0.coords t) = 1#1
  · have hl := live3_of_reset m ((cfgM m).grid.coords t) h1
    rw [hl]
    exact .rfl
  · have hodd : t.val % 2 = 1 := by
      have := (hcond1 m t).not.mp h1
      omega
    rw [(flush3 m t).mpr hodd]
    cases (cfgM m).idle 3 ((cfgM m).grid.coords t) <;> exact .rfl

/-- What the body is called with at point `t`, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ (dats m 0 c).leavesExact 3 t)

/-- The body at any point. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = iprop(Pipeline.ΦA spec0 c ∗ Pipeline.ΦT pre0 (tbl m) c) from rfl, PhiT_eq]
  iintro ⟨⟨HΦ, HT⟩, Ho, ⟨%d0, H0⟩, ⟨%d1, H1⟩, ⟨%d2, H2⟩, ⟨%d3, H3⟩⟩
  iapply (body_run c (grid0.coords t) (ms0 m t) (hs0 m t) (ms1 m t) (hs1 m t) (ms2 m t) (hs2 m t) (ms3 m t) (hs3 m t)
    (iblk m c 0 t) (iblk m c 1 t) (iblk m c 2 t) ((dats m 0 c).before 3 t d3) (tbl m 0) Set.univ _)
  isplitl [H0]; · iexact H0
  isplitl [H1]; · iexact H1
  isplitl [H2]; · iexact H2
  isplitl [H3]; · iexact H3
  isplitl [HT]; · iexact HT
  iintro ⟨H0, H1, H2, H3, HT⟩
  isplitl [HΦ HT]
  · isplitl [HΦ]; · iexact HΦ
    iexact HT
  isplitl [Ho]; · iexact Ho
  isplitl [H0]; · iexact H0
  isplitl [H1]; · iexact H1
  isplitl [H2]; · iexact H2
  iapply (leaves3 m c t)
  iapply (owns_of_eq (ms3 m t) ((plane_step m c t d3).symm.trans (after3 m c t).symm))
  iexact H3

/-- The library's body obligation, at every point. -/
theorem body_obligation (c : Dev nD) :
    BodyObligation (dats (F := F) m 0 c) (defs₀ (F := F)) Variants.none () Set.univ := fun t => by
  rw [bigSep_W0, bigSep_W0]
  exact sound_body m c t

end Cert.Kernel.Hand

end
-- ==== Proof.KbFrame.lean ====
/-
  The kernel's program runs: the frame run of its one region, and the frame claim.

  Every weakly fair execution of @main terminates without a fault; afterwards each array of the region holds what
  the proof data computes — an input its contents at the region's entry, the output those overwritten by the plane
  each odd point wrote back — and every other buffer what it held at the region's entry; in particular the three
  argument arrays are as launched.
-/
import proofs.«424259_j87522843560476_3_alg».proof.Proof.KbBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

set_option backward.isDefEq.respectTransparency.types false in
/-- The frame run: from any memory with zero counters every weakly fair execution of @main terminates, every array of
    the region at what the proof data computes and every other unscoped buffer as the region found it. -/
theorem run_main :
    θ_run defs (onTc (τ := τ) (main (F := F))) (s₀ m ρ)
      (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KiKit.lean ====
/-
  The launch side of the kernel program's frame, for the one pallas_call of @main.

  @main slices the coordinate pairs into a row array `[256, 1, 4096]` and a column array `[256, 4096, 1]`
  (four host operations) and then enters the region. The region's grid is `256 × 2`: point `t` handles
  tile `t % 2` of sample `t / 2`. Three input windows (the row, column and feature blocks of the tile) are
  fetched at every point; the output window is the sample's `512 × 512` plane, the same block at both
  points of a sample, so it is written back at the odd points only and carried from the even point to the
  odd one in between. The count of valid points is a prefetched table in scalar memory, which the body
  reads one word of and the index maps do not read at all — so the pipeline's side condition on the table
  is empty and every contents of it is admissible.

  Stated here: the buffers' contents when the region is entered; that @main reduces to the region there; the
  table as the region holds it; each window's block, current staging memref, and the body as the region
  calls it; that an input's staging buffer holds its block at every point; the two facts of the schedule
  decided over the 512 points (the reset branch is taken exactly at the even points, the plane is written
  back exactly at the odd ones); and the frame claim's post read off the frame run's.
-/
import proofs.«424259_j87522843560476_3_alg».proof.Proof.Gen.KernelIdeal.Launch
import proofs.«424259_j87522843560476_3_alg».proof.Proof.Gen.KernelIdeal.Skeleton
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the four slicing operations. -/
abbrev V (c : Dev nD) (b : Ref sig .tc) : Buf (Elt F) ((c : Thread nD τ).loc b) :=
  StableHlo.after hostOps0 (fun b => m (c, b)) b

/-- None of the four operations allocates a buffer. -/
theorem hostOps0_fresh : (hostOps0 : List (HloOp τ sig (Elt F))).Forall fun op => op.fresh = ∅ := by
  simp only [List.Forall]; repeat' constructor

/-- @main is the four operations and then the region. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer none of the four operations writes is found as launched. The operations write `main_v0` … `main_v3`. -/
theorem V_unwritten (c : Dev nD) (r : Ref sig .tc) (h0 : r ≠ main_v0) (h1 : r ≠ main_v1) (h2 : r ≠ main_v2) (h3 : r ≠ main_v3) :
    V m c r = m ((c : Thread nD τ).loc r) :=
  StableHlo.after_of_forall_not_mem (b := Proc.devRef .tc r) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

theorem V_main_arg0 (c : Dev nD) : V m c main_arg0 = m ((c : Thread nD τ).loc main_arg0) :=
  V_unwritten m c main_arg0 (by decide) (by decide) (by decide) (by decide)
theorem V_main_arg1 (c : Dev nD) : V m c main_arg1 = m ((c : Thread nD τ).loc main_arg1) :=
  V_unwritten m c main_arg1 (by decide) (by decide) (by decide) (by decide)
theorem V_main_arg2 (c : Dev nD) : V m c main_arg2 = m ((c : Thread nD τ).loc main_arg2) :=
  V_unwritten m c main_arg2 (by decide) (by decide) (by decide) (by decide)

/-! ## The table of counts -/

/-- The table's contents when the region is entered (there is one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- Every contents of the table is admissible: no index map reads it. -/
abbrev adm : (pcfg0 (F := F)).Adm := ⟨tbl m, trivial⟩
/-- The pipeline at the table's contents. -/
abbrev cfgM : Pipeline.Cfg sig Λ₀ := cfg0 (adm m)

/-- The table as the body is handed it: the whole scalar-memory buffer. -/
abbrev tbM : Memref sig .tc .smem S256 .i32 := Memref.whole main_arg1
abbrev htbM : tbM.IsWhole := Memref.isWhole_whole _
/-- Its contents type on core `c`, and the half share of it the region lends the body, at contents `f`. -/
abbrev TbBuf (c : Dev nD) : Type := Buf (Elt F) (tbM.view.loc (c : Thread nD τ))
abbrev tbPt (c : Dev nD) (f : TbBuf (F := F) c) : sProp 𝕄 :=
  tbM.view.loc (c : Thread nD τ) ↦{fullShare.right} f

/-- What the region holds of the table between points is that one half share. -/
theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## Blocks, staging memrefs, the body at a point -/

/-- Window `w`'s block at point `t`, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- Each window's current staging memref at point `t`, as the region passes it to the body, and its wholeness. -/
abbrev ms0 (t : Fin (cfgM m).N) : Memref sig .tc .vmem S1x1x2048 .i32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x2048x1 .i32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x2048x1 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x512x512 .f32 := spec0_3.stage ((cfgM m).slots t 3)
abbrev hs3 (t : Fin (cfgM m).N) : (ms3 m t).IsWhole := hstage0_3 (((cfgM m).slots t 3).cast nbuf0_3)

/-- The kernel body at point `t`, on what the region calls it with. -/
abbrev bodyAt (t : Fin (cfgM m).N) : Prog (TpuEff nD τ sig (Elt F) Λ₀ .tc) PUnit :=
  cc0__scatter_kernel (grid0.coords t) tbM htbM (ms0 m t) (hs0 m t) (ms1 m t) (hs1 m t) (ms2 m t) (hs2 m t) (ms3 m t) (hs3 m t)

/-! ## The schedule, decided over the 512 points -/

/-- The reset branch's condition holds exactly at the even points (tile 0 of each sample). -/
theorem hcond1 : ∀ t : Fin (cfgM m).N, k0_cond1 (grid0.coords t) = 1#1 ↔ t.val % 2 = 0 :=
  (by decide +kernel : ∀ t : Fin grid0.N, k0_cond1 (grid0.coords t) = 1#1 ↔ t.val % 2 = 0)

/-- The plane is written back exactly at the odd points (after tile 1 of each sample). -/
theorem flush3 : ∀ t : Fin (cfgM m).N, ((cfgM m).win 3).flush t = true ↔ t.val % 2 = 1 :=
  (by decide +kernel : ∀ t : Fin grid0.N, Pipeline.Window.flushOf grid0 true cc0_transform_3 t = true ↔ t.val % 2 = 1)

/-! ## An input's staging buffer holds its block -/

section Inputs
variable {m}
variable {c : Dev nD} (dat : Dat τ (Elt F) Unit ℕ (UR sig nD τ) ℕ (cfgM m) c)

/-- An input window's current staging buffer holds its block at every point, fetched there or not, for any proof
    data whose array is the region-entry contents and whose body leaves the block in place. -/
theorem before_in0 (hA : dat.A 0 = V m c (Pipeline.arrRef spec0 0)) (hafter : ∀ t, dat.after 0 t = iblk m c 0 t)
    (t : Fin (cfgM m).N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
theorem before_in1 (hA : dat.A 1 = V m c (Pipeline.arrRef spec0 1)) (hafter : ∀ t, dat.after 1 t = iblk m c 1 t)
    (t : Fin (cfgM m).N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
theorem before_in2 (hA : dat.A 2 = V m c (Pipeline.arrRef spec0 2)) (hafter : ∀ t, dat.after 2 t = iblk m c 2 t)
    (t : Fin (cfgM m).N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)

end Inputs

/-! ## The frame claim's post from the frame run's -/

/-- For any proof data whose arrays are the region-entry contents, a run to the frame run's post, read at the three
    argument arrays — the features through their window, the coordinate pairs and the counts as buffers the
    region does not stage — is the frame claim's post. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (by decide : main_arg0 ∈ Pipeline.restRefs sig spec0)).trans (V_main_arg0 m c),
     ((h c).2 main_arg1 (by decide : main_arg1 ∈ Pipeline.restRefs sig spec0)).trans (V_main_arg1 m c),
     ((h c).1 2).trans (((dats 0 c).arrAt_in 2 rfl _).trans ((hA c 2).trans (V_main_arg2 m c)))⟩) h

end Cert.KernelIdeal.Hand

end
-- ==== Proof.KiStep.lean ====
/-
  One step of the plane: what the kernel body leaves in the plane's staging buffer, as a function of what it reads.

  The body reads the sample's count from the table and then does two independent things: on the sample's first
  tile it overwrites the plane with zeros; when the count exceeds the tile's first position it stores the plane
  plus the tile's product. So the plane after the body is the plane it found — zeros instead, after a reset —
  with the tile added when the tile is not skipped.
-/
import proofs.«424259_j87522843560476_3_alg».proof.Proof.KiKit

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-- The count word the body loads at point `i`, from the table held at contents `xt`: the word of sample `i 0`. -/
abbrev word (c : Dev nD) (i : grid0.Coords) (xt : TbBuf (F := F) c) : Elt F .i32 :=
  tbM.view.readAt (Elt F) (Rect.unit (s := S256) (k0_off1 i) S1.size (k0_off1_inb i)).toLoadRect xt
    (Shape.Idx.first (numel1_S1.symm ▸ Nat.one_pos))

/-- What the body leaves in the plane's staging buffer, from the point, the count word, the tile's three blocks and
    what the buffer held: zeros in place of what it held when the reset branch is taken, and the tile's accumulating
    store over that when the tile is not skipped. -/
def stepOut (i : grid0.Coords) (v : Elt F .i32) (xrow : Vec F S1x1x2048 .i32) (xcol : Vec F S1x2048x1 .i32)
    (xfeat : Vec F S1x2048x1 .f32) (prev : Vec F S1x512x512 .f32) : Vec F S1x512x512 .f32 :=
  if k0_cond2 i v = 1#1 then
    k0_pay2 i v xfeat xcol xrow (if k0_cond1 i = 1#1 then k0_pay1 (F := F) else prev)
  else (if k0_cond1 i = 1#1 then k0_pay1 (F := F) else prev)

end Cert.KernelIdeal.Hand

end
-- ==== Proof.KiData.lean ====
/-
  What the region's buffers hold, point by point.

  The inputs' staging buffers hold their blocks. The plane's staging buffer is the interesting one. Point
  `2 * s` is the first tile of sample `s`: the body resets the plane there, so what the buffer held before does
  not matter, and leaves the first tile's plane. Point `2 * s + 1` is the second tile: the buffer has not
  been written back in between, so the body finds the first tile's plane and leaves it with the second tile
  added (or as it found it, when the second tile is skipped). That point writes the block back. So the plane
  after point `t` is one step of `stepOut` over the plane after point `t - 1` — at an even point over anything.
-/
import proofs.«424259_j87522843560476_3_alg».proof.Proof.KiStep

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The count word the body loads at point `t`, off the table as the region holds it. -/
abbrev wordAt (c : Dev nD) (t : Fin (cfgM m).N) : Elt F .i32 := word c (grid0.coords t) (tbl m 0)

/-- When the reset branch is taken, what the plane's buffer held before does not matter. -/
theorem stepOut_reset (i : grid0.Coords) (v : Elt F .i32) (xrow : Vec F S1x1x2048 .i32) (xcol : Vec F S1x2048x1 .i32)
    (xfeat : Vec F S1x2048x1 .f32) (prev prev' : Vec F S1x512x512 .f32) (h1 : k0_cond1 i = 1#1) :
    stepOut i v xrow xcol xfeat prev = stepOut i v xrow xcol xfeat prev' := by
  unfold stepOut; rw [if_pos h1, if_pos h1]

/-- The plane's staging buffer after the body at position `n`: one step over what position `n - 1` left (at
    position 0 over the plane of zeros: the reset branch is taken there and ignores it). -/
def planeAt (c : Dev nD) : (n : ℕ) → n < (cfgM m).N → Vec F S1x512x512 .f32
  | 0, hn => stepOut (grid0.coords ⟨0, hn⟩) (wordAt m c ⟨0, hn⟩) (iblk m c 0 ⟨0, hn⟩) (iblk m c 1 ⟨0, hn⟩) (iblk m c 2 ⟨0, hn⟩)
      (k0_pay1 (F := F))
  | n + 1, hn => stepOut (grid0.coords ⟨n + 1, hn⟩) (wordAt m c ⟨n + 1, hn⟩) (iblk m c 0 ⟨n + 1, hn⟩) (iblk m c 1 ⟨n + 1, hn⟩)
      (iblk m c 2 ⟨n + 1, hn⟩) (planeAt c n (Nat.lt_of_succ_lt hn))

/-- At a later point: one step over the point before. -/
theorem planeAt_pos (c : Dev nD) (t : Fin (cfgM m).N) (ht : t.val ≠ 0) :
    planeAt m c t.val t.isLt = stepOut (grid0.coords t) (wordAt m c t) (iblk m c 0 t) (iblk m c 1 t) (iblk m c 2 t)
      (planeAt m c (t.val - 1) (Nat.lt_of_le_of_lt (Nat.sub_le _ _) t.isLt)) := by
  obtain ⟨n, hn⟩ := t
  cases n with
  | zero => exact absurd rfl ht
  | succ n => rfl

/-- At an even point: one step over anything. -/
theorem planeAt_even (c : Dev nD) (t : Fin (cfgM m).N) (ht : t.val % 2 = 0) (prev : Vec F S1x512x512 .f32) :
    planeAt m c t.val t.isLt = stepOut (grid0.coords t) (wordAt m c t) (iblk m c 0 t) (iblk m c 1 t) (iblk m c 2 t) prev := by
  have h1 : k0_cond1 (grid0.coords t) = 1#1 := (hcond1 m t).mpr ht
  obtain ⟨n, hn⟩ := t
  cases n with
  | zero => exact stepOut_reset _ _ _ _ _ _ _ h1
  | succ n => exact stepOut_reset _ _ _ _ _ _ _ h1

/-! ## The proof data -/

/-- The proof data of the pipeline on core `c`: the arrays as the region finds them; after the body each input's
    buffer at its block and the plane's at `planeAt`; between points the region's own invariant and its half of the
    table; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => planeAt m c t.val t.isLt
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; rfl
theorem after1 (c : Dev nD) (t : Fin (cfgM m).N) : (dats m 0 c).after 1 t = iblk m c 1 t := by dsimp only [dats]; rfl
theorem after2 (c : Dev nD) (t : Fin (cfgM m).N) : (dats m 0 c).after 2 t = iblk m c 2 t := by dsimp only [dats]; rfl
theorem after3 (c : Dev nD) (t : Fin (cfgM m).N) : (dats m 0 c).after 3 t = planeAt m c t.val t.isLt := by dsimp only [dats]; rfl

theorem before0 (c : Dev nD) (t : Fin (cfgM m).N) (d) : (dats m 0 c).before 0 t d = iblk m c 0 t :=
  before_in0 (dats m 0 c) (A_eq m c 0) (after0 m c) t d
theorem before1 (c : Dev nD) (t : Fin (cfgM m).N) (d) : (dats m 0 c).before 1 t d = iblk m c 1 t :=
  before_in1 (dats m 0 c) (A_eq m c 1) (after1 m c) t d
theorem before2 (c : Dev nD) (t : Fin (cfgM m).N) (d) : (dats m 0 c).before 2 t d = iblk m c 2 t :=
  before_in2 (dats m 0 c) (A_eq m c 2) (after2 m c) t d

/-- The plane's window is live (not idle) wherever the reset branch is taken. -/
theorem live3_of_reset (i : grid0.Coords) (h1 : k0_cond1 i = 1#1) : (cfgM m).idle 3 i = false := by
  show (!(k0_cond1 i == 1#1) && !(k0_cond2 i ((tbl m).atD 0 (k0_off1 i)) == 1#1)) = false
  rw [h1]; rfl

/-- At an odd point the plane's buffer holds what the body left at the even point before: it is not the first
    point, the buffer was not written back in between, the even point is live for the window, and the window's
    blocks are whole. -/
theorem before3_odd (c : Dev nD) (t : Fin (cfgM m).N) (ht : t.val % 2 = 1) (d) :
    (dats m 0 c).before 3 t d = planeAt m c (t.val - 1) (Nat.lt_of_le_of_lt (Nat.sub_le _ _) t.isLt) := by
  have ht0 : t.val ≠ 0 := by omega
  have hfl : ((cfgM m).win 3).flush ⟨t.val - 1, Nat.lt_of_le_of_lt (Nat.sub_le _ _) t.isLt⟩ = false :=
    Bool.eq_false_iff.mpr fun h => by have := (flush3 m _).mp h; dsimp only at this; omega
  have hlive : (cfgM m).idle 3 ((cfgM m).grid.coords ⟨t.val - 1, Nat.lt_of_le_of_lt (Nat.sub_le _ _) t.isLt⟩) = false :=
    live3_of_reset m _ ((hcond1 m _).mpr (by dsimp only; omega))
  rw [(dats m 0 c).before_of_pos 3 t ht0 (((cfgM m).win 3).fetch_out rfl t), hfl, if_neg Bool.false_ne_true]
  unfold Dat.left
  rw [hlive]
  unfold Dat.kept
  rw [Pipeline.fill_of_clip_none 3 _ (fun _ => rfl) d ((dats m 0 c).after 3 _), Window.fill_cut]
  dsimp only [dats]; rfl

end Cert.KernelIdeal.Hand

end
-- ==== Proof.KiRun.lean ====
/-
  The kernel body, run once on whole staging memrefs.

  The body reads the sample's count from the table, then does two independent things. If this is the sample's
  first tile it overwrites the plane with zeros. If the count exceeds the tile's first position it loads the
  tile's feature, column and row blocks and the plane, and stores the plane plus the tile's product back. The
  inputs' memrefs and the table are only read. So whatever the two conditions are, the body ends with the
  inputs and the table as they were and the plane at `stepOut`: the plane it found, or zeros after a reset,
  with the tile added when the tile is not skipped.
-/
import proofs.«424259_j87522843560476_3_alg».proof.Proof.KiStep
import proofs.«424259_j87522843560476_3_alg».proof.Proof.LibReadBack

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Three zero offsets, as the body's accesses spell them, are the constant zero. -/
theorem hz3 : (![0, 0, 0] : Fin 3 → Nat) = fun _ => 0 := by
  funext a; fin_cases a <;> rfl

section ReadBack

variable {Val : EltTy → Type} [∀ e, Nonempty (Val e)] {sg : RefSig} {κ : Kind} {sp : Space} {S : Shape} {e : EltTy}

/-- After a last store through the whole-shape rectangle at zero offsets, the buffer reads that store's payload,
    whatever it held and whatever was stored before. -/
theorem read_writes_cons_whole (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole-shape rectangle at zero offsets reads what the view reads. -/
theorem readAt_whole (v : View sg κ sp S e) (f : v.ty.Contents Val) {off : Fin S.rank → Nat}
    (h : off = fun _ => 0) (inb : ∀ a, off a + S.size a ≤ S.size a) :
    v.readAt Val (Rect.unit off S.size inb).toLoadRect f = v.read Val f := by
  rw [View.readAt_eq_ld, View.ld_unit_zero h]

end ReadBack

/-- The body on whole staging memrefs at given contents, the table at half share: it runs to the continuation
    holding the inputs and the table as they were and the plane's buffer at `stepOut`. -/
theorem body_run (c : Dev nD) (i : grid0.Coords)
    (a3 : Memref sig .tc .vmem S1x1x2048 .i32) (h3 : a3.IsWhole) (a4 : Memref sig .tc .vmem S1x2048x1 .i32) (h4 : a4.IsWhole)
    (a5 : Memref sig .tc .vmem S1x2048x1 .f32) (h5 : a5.IsWhole) (a6 : Memref sig .tc .vmem S1x512x512 .f32) (h6 : a6.IsWhole)
    (xrow : Vec F S1x1x2048 .i32) (xcol : Vec F S1x2048x1 .i32) (xfeat : Vec F S1x2048x1 .f32) (prev : Vec F S1x512x512 .f32)
    (xt : TbBuf (F := F) c) (E : Set ℕ) (K : PUnit → sProp 𝕄) :
    iprop(owns (c : Thread nD τ) a3 fullShare xrow ∗ owns (c : Thread nD τ) a4 fullShare xcol
        ∗ owns (c : Thread nD τ) a5 fullShare xfeat ∗ owns (c : Thread nD τ) a6 fullShare prev ∗ tbPt c xt
        ∗ (iprop(owns (c : Thread nD τ) a3 fullShare xrow ∗ owns (c : Thread nD τ) a4 fullShare xcol
            ∗ owns (c : Thread nD τ) a5 fullShare xfeat
            ∗ owns (c : Thread nD τ) a6 fullShare (stepOut i (word c i xt) xrow xcol xfeat prev) ∗ tbPt c xt) -∗ K ⟨⟩))
      ⊢ wp frame (wpE (defs₀ (F := F)) Variants.none c none) E
          (cc0__scatter_kernel i tbM htbM a3 h3 a4 h4 a5 h5 a6 h6) K := by
  simp only [cc0__scatter_kernel_eq_skeleton]; unfold cc0__scatter_kernel_skel
  unfold owns
  iintro ⟨⟨%f3, %hf3, H3⟩, ⟨%f4, %hf4, H4⟩, ⟨%f5, %hf5, H5⟩, ⟨%f6, %hf6, H6⟩, HT, Hk⟩
  obtain rfl := h3.eq_unread hf3
  obtain rfl := h4.eq_unread hf4
  obtain rfl := h5.eq_unread hf5
  obtain rfl := h6.eq_unread hf6
  by_cases hc1 : k0_cond1 i = 1#1 <;> by_cases hc2 : k0_cond2 i (word c i xt) = 1#1
  · sl_exec (disch := first | sl_exact hc1 | sl_exact hc2)
    sl_step
    iapply Hk
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; swap; · iexact H6
      ipureintro
      unfold stepOut
      rw [if_pos hc2, if_pos hc1]
      sl_unfold_run_names
      rw [read_writes_cons_whole (S := S1x512x512) _ _ hz3, View.readCov_unit_zero (S := S1x512x512) _ hz3,
        readAt_whole (S := S1x2048x1) a5.view _ hz3, readAt_whole (S := S1x2048x1) a4.view _ hz3,
        readAt_whole (S := S1x1x2048) a3.view _ hz3, hf3, hf4, hf5]
    iexact HT
  · sl_exec (disch := first | sl_exact hc1 | sl_exact hc2)
    sl_step
    iapply Hk
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; swap; · iexact H6
      ipureintro
      unfold stepOut
      rw [if_neg hc2, if_pos hc1]
      sl_unfold_run_names
      rw [read_writes_cons_whole (S := S1x512x512) _ _ hz3]
    iexact HT
  · sl_exec (disch := first | sl_exact hc1 | sl_exact hc2)
    sl_step
    iapply Hk
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; swap; · iexact H6
      ipureintro
      unfold stepOut
      rw [if_pos hc2, if_neg hc1]
      sl_unfold_run_names
      rw [read_writes_cons_whole (S := S1x512x512) _ _ hz3,
        readAt_whole (S := S1x2048x1) a5.view _ hz3, readAt_whole (S := S1x2048x1) a4.view _ hz3,
        readAt_whole (S := S1x1x2048) a3.view _ hz3, readAt_whole (S := S1x512x512) a6.view _ hz3, hf3, hf4, hf5, hf6]
    iexact HT
  · sl_exec (disch := first | sl_exact hc1 | sl_exact hc2)
    sl_step
    iapply Hk
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; swap; · iexact H6
      ipureintro
      unfold stepOut
      rw [if_neg hc2, if_neg hc1]
      exact hf6
    iexact HT

end Cert.KernelIdeal.Hand

end
-- ==== Proof.KiBody.lean ====
/-
  The body obligation: at every point the kernel body takes the region's buffers from what they hold before it
  to what the proof data says they hold after it.

  Before the body the three inputs' buffers hold their blocks and the plane's buffer holds something `X`; the body
  leaves the inputs and the table alone and the plane at one step over `X`. At an even point that step does not
  depend on `X`; at an odd point `X` is the plane the even point left. Either way the result is the plane the
  proof data names. The plane's window is idle only where neither branch stores, which can only be an odd point,
  and an odd point writes the block back, so the named plane is what the obligation asks for there too.
-/
import proofs.«424259_j87522843560476_3_alg».proof.Proof.KiData
import proofs.«424259_j87522843560476_3_alg».proof.Proof.KiRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The plane after point `t` is one step over whatever the plane's buffer holds before the body there. -/
theorem plane_step (c : Dev nD) (t : Fin (cfgM m).N) (d) :
    planeAt m c t.val t.isLt = stepOut (grid0.coords t) (wordAt m c t) (iblk m c 0 t) (iblk m c 1 t) (iblk m c 2 t)
      ((dats m 0 c).before 3 t d) := by
  rcases Nat.mod_two_eq_zero_or_one t.val with h | h
  · exact planeAt_even m c t h _
  · rw [before3_odd m c t h d]
    exact planeAt_pos m c t (by omega)

/-- The same contents, the same ownership. -/
theorem owns_of_eq {c : Dev nD} {S : Shape} {e : EltTy} (M : Memref sig .tc .vmem S e) {X Y : Vec F S e} (h : X = Y) :
    owns (c : Thread nD τ) M fullShare X ⊢ (owns (c : Thread nD τ) M fullShare Y : sProp 𝕄) := by
  subst h; exact .rfl

/-- The named plane is what the obligation asks of the plane's buffer, idle point or not. -/
theorem leaves3 (c : Dev nD) (t : Fin (cfgM m).N) :
    owns (c : Thread nD τ) (ms3 m t) fullShare ((dats m 0 c).after 3 t) ⊢ ((dats m 0 c).leavesExact 3 t : sProp 𝕄) := by
  unfold Dat.leavesExact
  by_cases h1 : k0_cond1 (grid0.coords t) = 1#1
  · have hl := live3_of_reset m ((cfgM m).grid.coords t) h1
    rw [hl]
    exact .rfl
  · have hodd : t.val % 2 = 1 := by
      have := (hcond1 m t).not.mp h1
      omega
    rw [(flush3 m t).mpr hodd]
    cases (cfgM m).idle 3 ((cfgM m).grid.coords t) <;> exact .rfl

/-- What the body is called with at point `t`, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ (dats m 0 c).leavesExact 3 t)

/-- The body at any point. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = iprop(Pipeline.ΦA spec0 c ∗ Pipeline.ΦT pre0 (tbl m) c) from rfl, PhiT_eq]
  iintro ⟨⟨HΦ, HT⟩, Ho, ⟨%d0, H0⟩, ⟨%d1, H1⟩, ⟨%d2, H2⟩, ⟨%d3, H3⟩⟩
  iapply (body_run c (grid0.coords t) (ms0 m t) (hs0 m t) (ms1 m t) (hs1 m t) (ms2 m t) (hs2 m t) (ms3 m t) (hs3 m t)
    (iblk m c 0 t) (iblk m c 1 t) (iblk m c 2 t) ((dats m 0 c).before 3 t d3) (tbl m 0) Set.univ _)
  isplitl [H0]; · iexact H0
  isplitl [H1]; · iexact H1
  isplitl [H2]; · iexact H2
  isplitl [H3]; · iexact H3
  isplitl [HT]; · iexact HT
  iintro ⟨H0, H1, H2, H3, HT⟩
  isplitl [HΦ HT]
  · isplitl [HΦ]; · iexact HΦ
    iexact HT
  isplitl [Ho]; · iexact Ho
  isplitl [H0]; · iexact H0
  isplitl [H1]; · iexact H1
  isplitl [H2]; · iexact H2
  iapply (leaves3 m c t)
  iapply (owns_of_eq (ms3 m t) ((plane_step m c t d3).symm.trans (after3 m c t).symm))
  iexact H3

/-- The library's body obligation, at every point. -/
theorem body_obligation (c : Dev nD) :
    BodyObligation (dats (F := F) m 0 c) (defs₀ (F := F)) Variants.none () Set.univ := fun t => by
  rw [bigSep_W0, bigSep_W0]
  exact sound_body m c t

end Cert.KernelIdeal.Hand

end
-- ==== Proof.KiFrame.lean ====
/-
  The kernel's program runs: the frame run of its one region, and the frame claim.

  Every weakly fair execution of @main terminates without a fault; afterwards each array of the region holds what
  the proof data computes — an input its contents at the region's entry, the output those overwritten by the plane
  each odd point wrote back — and every other buffer what it held at the region's entry; in particular the three
  argument arrays are as launched.
-/
import proofs.«424259_j87522843560476_3_alg».proof.Proof.KiBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

set_option backward.isDefEq.respectTransparency.types false in
/-- The frame run: from any memory with zero counters every weakly fair execution of @main terminates, every array of
    the region at what the proof data computes and every other unscoped buffer as the region found it. -/
theorem run_main :
    θ_run defs (onTc (τ := τ) (main (F := F))) (s₀ m ρ)
      (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
/-
  The densified tensor, stated once for both programs.

  A sample `b` carries 4096 points; point `p` has a row and a column coordinate (`idx (b, p, 0)` and
  `idx (b, p, 1)`, 32-bit words read as signed integers) and a feature `feat (b, p, 0)`; the first
  `nv b` points of the sample are valid, the rest is padding. The dense tensor's cell `(b, h, w)` is the
  sum of the features of the valid points of sample `b` whose coordinates are exactly `(h, w)`: points
  that share a cell add up, a valid point whose coordinates name no cell of the 512 × 512 plane
  contributes to none, and padding contributes nothing whatever its stale coordinates say.

  Written as ONE sum over all 4096 points of a per-point contribution that is the feature or zero, so
  that both programs' results can be brought to it term by term: no law of the extended reals beyond
  `0 + x = x`, `1 * x = x`, `0 * x = 0`, `x * 0 = 0` and the commutativity of finite sums is needed,
  and none of them asks the features to be finite.
-/
import Idealize.ShloMosaic.PureOps.Ideal
import Idealize.ShloMosaic.Lib.ValueIdx

noncomputable section

open scoped BigOperators

namespace Cert.Densify

open Idealize.ShloMosaic Idealize.ShloMosaic.ValueIdx

/-- The coordinate pairs of all points: `[256, 4096, 2]` signed 32-bit words. -/
abbrev Coords : Type := IVec (⟨3, ![256, 4096, 2]⟩ : Shape) 32
/-- Each sample's count of valid points: `[256]` signed 32-bit words. -/
abbrev Counts : Type := IVec (⟨1, ![256]⟩ : Shape) 32
/-- The points' features at the ideal instance: `[256, 4096, 1]` extended reals. -/
abbrev Feats : Type := FVec Ideal (⟨3, ![256, 4096, 1]⟩ : Shape) .f32

/-- Point `p` of sample `b` is valid: its position is below the sample's count, both as signed integers. -/
def Valid (nv : Counts) (b : Fin 256) (p : Fin 4096) : Prop :=
  (p.val : Int) < (nv (ix1 b)).toInt

/-- Point `p` of sample `b` lies in cell `(h, w)`: its two coordinates, read signed, are `h` and `w`. -/
def Hits (idx : Coords) (b : Fin 256) (p : Fin 4096) (h w : Fin 512) : Prop :=
  (idx (ix3 b p (0 : Fin 2))).toInt = (h.val : Int) ∧ (idx (ix3 b p (1 : Fin 2))).toInt = (w.val : Int)

open Classical in
/-- What point `p` adds to cell `(b, h, w)`: its feature when it is valid and lies in the cell, else nothing. -/
def contrib (idx : Coords) (nv : Counts) (feat : Feats) (b : Fin 256) (h w : Fin 512) (p : Fin 4096) : EReal :=
  if Valid nv b p ∧ Hits idx b p h w then feat (ix3 b p (0 : Fin 1)) else 0

/-- The dense tensor's cell `(b, h, w)`: the contributions of the sample's 4096 points, summed. -/
def dense (idx : Coords) (nv : Counts) (feat : Feats) (b : Fin 256) (h w : Fin 512) : EReal :=
  ∑ p : Fin 4096, contrib idx nv feat b h w p

/-- The domain on which the two programs agree: every VALID point's coordinates are non-negative.
    (Nothing is asked of padding, and nothing of how large a coordinate is: a coordinate of 512 or more
    names no cell for either program. A negative coordinate of a valid point is where they part: one
    program compares it with the cell's number as it stands, the other first counts it back from the
    plane's far edge.) -/
def ValidNonneg (idx : Coords) (nv : Counts) : Prop :=
  ∀ (b : Fin 256) (p : Fin 4096) (k : Fin 2), Valid nv b p → 0 ≤ (idx (ix3 b p k)).toInt

end Cert.Densify

end
-- ==== Proof.SpecArr.lean ====
/-
  The dense tensor as one array `[256, 512, 512]`, for stating both programs' results as the same function.
-/
import proofs.«424259_j87522843560476_3_alg».proof.Proof.Spec

noncomputable section

namespace Cert.Densify

open Idealize.ShloMosaic Idealize.ShloMosaic.ValueIdx

/-- The dense tensor, cell by cell. -/
def denseArr (idx : Coords) (nv : Counts) (feat : Feats) : (⟨3, ![256, 512, 512]⟩ : Shape).Idx → EReal :=
  fun i => dense idx nv feat (i 0) (i 1) (i 2)

theorem denseArr_ix3 (idx : Coords) (nv : Counts) (feat : Feats) (b : Fin 256) (h w : Fin 512) :
    denseArr idx nv feat (ix3 b h w) = dense idx nv feat b h w := rfl

/-- An array that is the dense tensor at every cell is the dense tensor. -/
theorem eq_denseArr (idx : Coords) (nv : Counts) (feat : Feats) (f : (⟨3, ![256, 512, 512]⟩ : Shape).Idx → EReal)
    (hf : ∀ (b : Fin 256) (h w : Fin 512), f (ix3 b h w) = dense idx nv feat b h w) : f = denseArr idx nv feat := by
  funext i
  rw [eq_ix3 i]
  exact hf _ _ _

end Cert.Densify

end
-- ==== Proof.TileValue.lean ====
/-
  One tile of 2048 points, as the kernel adds it into a sample's plane.

  The kernel handles the 4096 points of a sample in two tiles of 2048. For tile `kp` it builds two matrices
  from the tile's blocks: a 512 × 2048 matrix that is 1 where row `h` is the point's row coordinate and 0
  elsewhere, and a 2048 × 512 matrix whose entry `(r, w)` is the point's masked feature where `w` is its
  column coordinate and 0 elsewhere, the mask being 1 for the points at positions below the sample's count and
  0 for the rest. Their product, added to what the plane held, is the new plane: cell `(h, w)` gains, for
  each point `r` of the tile, `1 * feature`, `1 * 0`, `0 * feature` or `0 * 0` — the feature exactly when
  the point is valid and lies in the cell. The narrowing of both matrices to a shorter float format is the
  identity at the ideal instance. The reset writes a plane of zeros.
-/
import proofs.«424259_j87522843560476_3_alg».proof.Proof.Spec
import proofs.«424259_j87522843560476_3_alg».proof.Proof.Gen.KernelIdeal.Skeleton
import Idealize.ShloMosaic.Lib.Pipeline.Value
import Idealize.ShloMosaic.Lib.ValueLayout
import Idealize.ShloMosaic.PureOps.Ideal.Laws

noncomputable section

open scoped BigOperators

namespace Cert.Densify.Tile

open Idealize.ShloMosaic Idealize.ShloMosaic.ValueIdx Cert.Densify Cert.KernelIdeal

open Classical in
/-- What point `r` of tile `kp` adds to cell `(h, w)` of the sample's plane, from the tile's blocks: its feature
    when its position `kp * 2048 + r` is below the count `nv` (signed) and its row and column words, read signed,
    are `h` and `w`; else nothing. -/
def tileTerm (kp : Fin 2) (nv : BitVec 32) (xfeat : Vec Ideal S1x2048x1 .f32) (xcol : Vec Ideal S1x2048x1 .i32)
    (xrow : Vec Ideal S1x1x2048 .i32) (h w : Fin 512) (r : Fin 2048) : EReal :=
  if ((kp.val * 2048 + r.val : Nat) : Int) < nv.toInt
      ∧ (xrow (ix3 (0 : Fin 1) (0 : Fin 1) r)).toInt = (h.val : Int)
      ∧ (xcol (ix3 (0 : Fin 1) r (0 : Fin 1))).toInt = (w.val : Int)
  then xfeat (ix3 (0 : Fin 1) r (0 : Fin 1)) else 0

/-! ## Words and extended reals -/

/-- The word of the float one is the extended real one. -/
theorem one_f32 : Ideal.ofBits .f32 0x3F800000#32 = 1 := by
  simp [Ideal.ofBits, Ideal.ieee]
  rw [← EReal.coe_mul]
  norm_num

/-- A one-bit condition widened to 32 bits and converted to a float is one when the bit is set and zero when it
    is not. -/
theorem sitofp_extui_bit (b : BitVec 1) :
    FloatOps.sitofp (F := Ideal) .f32 (b.setWidth 32) = if b = 1#1 then (1 : EReal) else 0 := by
  rcases BitVec.eq_zero_or_eq_one b with rfl | rfl
  · show ((((0#1 : BitVec 1).setWidth 32).toInt : ℝ) : EReal) = _
    have e : ((0#1 : BitVec 1).setWidth 32).toInt = 0 := by decide
    rw [e, if_neg (by decide)]; simp
  · show ((((1#1 : BitVec 1).setWidth 32).toInt : ℝ) : EReal) = _
    have e : ((1#1 : BitVec 1).setWidth 32).toInt = 1 := by decide
    rw [e, if_pos rfl]; simp

/-- The mask's comparison: the position `kp * 2048 + r` stays below 4096, so no word wraps, and the signed
    comparison of words is the comparison of the integers. -/
theorem mask_iff (kp : Fin 2) (nv : BitVec 32) (r : Fin 2048) :
    IntOp.cmpi .slt (IntOp.addi (Scalar.muli (BitVec.ofNat 32 kp.val) 2048#32) (BitVec.ofNat 32 r.val)) nv = 1#1
      ↔ ((kp.val * 2048 + r.val : Nat) : Int) < nv.toInt := by
  have hk := kp.isLt
  have hr := r.isLt
  have h1 : Affine.IsInt (BitVec.ofNat 32 kp.val) (kp.val : Int) := Affine.ofNat _ ⟨rfl, by omega⟩
  have h2 : Affine.IsInt (BitVec.ofNat 32 2048) (2048 : Int) := Affine.ofNat 2048 ⟨rfl, by omega⟩
  have h3 : Affine.IsInt (Scalar.muli (BitVec.ofNat 32 kp.val) (BitVec.ofNat 32 2048)) ((kp.val : Int) * 2048) :=
    Affine.muli h1 h2 ⟨rfl, by omega, by omega⟩
  have h4 : Affine.IsInt (BitVec.ofNat 32 r.val) (r.val : Int) := Affine.ofNat _ ⟨rfl, by omega⟩
  have h5 : Affine.IsInt (Scalar.addi (Scalar.muli (BitVec.ofNat 32 kp.val) (BitVec.ofNat 32 2048)) (BitVec.ofNat 32 r.val))
      ((kp.val : Int) * 2048 + r.val) := Affine.addi h3 h4 ⟨rfl, by omega, by omega⟩
  constructor
  · intro h
    by_contra hn
    exact Affine.slt_fails h5 (Affine.word nv) (by push_cast at hn; omega) h
  · intro h
    exact Affine.slt_holds h5 (Affine.word nv) (by push_cast at h; omega)

/-- A cell number below 512, as a word, equals a coordinate word exactly when that word read signed is the
    number. -/
theorem hit_iff (n : Nat) (hn : n < 512) (c : BitVec 32) :
    IntOp.cmpi .eq (BitVec.ofNat 32 n) c = 1#1 ↔ c.toInt = (n : Int) := by
  have h1 : Affine.IsInt (BitVec.ofNat 32 n) (n : Int) := Affine.ofNat _ ⟨rfl, by omega⟩
  constructor
  · intro h
    by_contra hn'
    exact Affine.eq_fails h1 (Affine.word c) (fun e => hn' e.symm) h
  · intro h
    exact Affine.eq_holds h1 (Affine.word c) h.symm

/-- A choice on a condition bit that is set exactly when `P` holds is the choice on `P`. -/
theorem select_of_iff {α : Type} (c : BitVec 1) (P : Prop) [Decidable P] (hc : c = 1#1 ↔ P) (a b : α) :
    Scalar.select c a b = if P then a else b := by
  unfold Scalar.select
  by_cases hP : P
  · rw [if_pos hP]
    exact if_pos (hc.mpr hP)
  · rw [if_neg hP]
    exact if_neg (fun h => hP (hc.mp h))

/-! ## The reset -/

/-- The reset's plane is zero everywhere. -/
theorem pay1_apply (h w : Fin 512) :
    Gen.k0_pay1 (F := Ideal) (ix3 (0 : Fin 1) h w) = 0 := by
  unfold Gen.k0_pay1
  show Ideal.ofBits .f32 0x00000000#32 = 0
  exact Ideal.ofBits_zero_f32

/-! ## The two matrices of a tile, named -/

/-- The column of masked features: point `r`'s feature times 1 or 0, as its position `kp * 2048 + r` is below the
    count or not. -/
def maskedFeat (kp : Nat) (nv : BitVec 32) (xfeat : Vec Ideal S1x2048x1 .f32) : FVec Ideal S2048x1 .f32 :=
  mulf (shapeCast S2048x1 xfeat Gen.shapeCasts_S1x2048x1_S2048x1)
    (sitofp .f32 (extui 32 (cmpi .slt (addi (broadcast S2048x1 (Scalar.muli (BitVec.ofNat 32 kp) 2048#32))
      (iota .tc S2048x1 32 [0] Gen.iota_S2048x1_d0_w32)) (broadcast S2048x1 nv)) Gen.natLt_1_32))

/-- The 2048 × 512 matrix: entry `(r, w)` is point `r`'s masked feature where `w` is its column word, else 0. -/
def colsMat (kp : Nat) (nv : BitVec 32) (xfeat : Vec Ideal S1x2048x1 .f32) (xcol : Vec Ideal S1x2048x1 .i32) :
    FVec Ideal S2048x512 .bf16 :=
  truncf .bf16
    (select
      (cmpi .eq (iota .tc S2048x512 32 [1] Gen.iota_S2048x512_d1_w32)
        (broadcastTo S2048x512 (shapeCast S2048x1 xcol Gen.shapeCasts_S1x2048x1_S2048x1) Gen.broadcasts_S2048x1_S2048x512))
      (broadcastTo S2048x512 (shapeCast S2048x1 (maskedFeat kp nv xfeat) Gen.shapeCasts_S2048x1_S2048x1)
        Gen.broadcasts_S2048x1_S2048x512)
      (broadcast S2048x512 (Scalar.ofBits (F := Ideal) .f32 0x00000000#32)))
    Gen.bitsLt_bf16_f32

/-- The 512 × 2048 matrix: entry `(h, r)` is 1 where `h` is point `r`'s row word, else 0. -/
def rowsMat (xrow : Vec Ideal S1x1x2048 .i32) : FVec Ideal S512x2048 .bf16 :=
  truncf .bf16
    (select
      (cmpi .eq (iota .tc S512x2048 32 [0] Gen.iota_S512x2048_d0_w32)
        (broadcastTo S512x2048 (shapeCast S1x2048 xrow Gen.shapeCasts_S1x1x2048_S1x2048) Gen.broadcasts_S1x2048_S512x2048))
      (broadcast S512x2048 (Scalar.ofBits (F := Ideal) .f32 0x3F800000#32))
      (broadcast S512x2048 (Scalar.ofBits (F := Ideal) .f32 0x00000000#32)))
    Gen.bitsLt_bf16_f32

/-- The accumulating store's plane is what the plane held plus the product of the two matrices. -/
theorem pay2_eq (i : grid0.Coords) (nv : BitVec 32) (xfeat : Vec Ideal S1x2048x1 .f32) (xcol : Vec Ideal S1x2048x1 .i32)
    (xrow : Vec Ideal S1x1x2048 .i32) (prev : Vec Ideal S1x512x512 .f32) :
    Gen.k0_pay2 (F := Ideal) i nv xfeat xcol xrow prev
      = shapeCast S1x512x512
          (addf (shapeCast S512x512 prev Gen.shapeCasts_S1x512x512_S512x512)
            (matmul dot_S512x2048_S2048x512_S512x512_1_0_0_1_n_n none (rowsMat xrow) (colsMat (i 1).val nv xfeat xcol)
              (constant S512x512 .f32 0x00000000#32)))
          Gen.shapeCasts_S512x512_S1x512x512 := rfl

/-! ## Changes of layout, read at a cell -/

/-- A column laid along every one of the 512 columns reads, at `(r, w)`, the column at `r`. -/
theorem bcast_col {α : Type} (x : S2048x1.Idx → α) (r : Fin 2048) (w : Fin 512) :
    broadcastTo S2048x512 x Gen.broadcasts_S2048x1_S2048x512 (ix2 r w) = x (ix2 r (0 : Fin 1)) :=
  broadcastTo_apply x _ (ix2 r w) (ix2 r (0 : Fin 1)) (fun a => match a with | ⟨0, _⟩ => rfl | ⟨1, _⟩ => rfl)

/-- A row laid along every one of the 512 rows reads, at `(h, r)`, the row at `r`. -/
theorem bcast_row {α : Type} (x : S1x2048.Idx → α) (h : Fin 512) (r : Fin 2048) :
    broadcastTo S512x2048 x Gen.broadcasts_S1x2048_S512x2048 (ix2 h r) = x (ix2 (0 : Fin 1) r) :=
  broadcastTo_apply x _ (ix2 h r) (ix2 (0 : Fin 1) r) (fun a => match a with | ⟨0, _⟩ => rfl | ⟨1, _⟩ => rfl)

/-- A `[1, 2048, 1]` block seen as a `[2048, 1]` column keeps its entries in place. -/
theorem cast_col {α : Type} (x : S1x2048x1.Idx → α) (r : Fin 2048) :
    shapeCast S2048x1 x Gen.shapeCasts_S1x2048x1_S2048x1 (ix2 r (0 : Fin 1)) = x (ix3 (0 : Fin 1) r (0 : Fin 1)) :=
  shapeCast_apply x _ (ix2 r (0 : Fin 1)) (ix3 (0 : Fin 1) r (0 : Fin 1)) (by
    rw [Shape.rowMajor_val_three, Shape.rowMajor_val_two]; show (0 * 2048 + r.val) * 1 + 0 = r.val * 1 + 0; omega)

/-- A `[1, 1, 2048]` block seen as a `[1, 2048]` row keeps its entries in place. -/
theorem cast_row {α : Type} (x : S1x1x2048.Idx → α) (r : Fin 2048) :
    shapeCast S1x2048 x Gen.shapeCasts_S1x1x2048_S1x2048 (ix2 (0 : Fin 1) r) = x (ix3 (0 : Fin 1) (0 : Fin 1) r) :=
  shapeCast_apply x _ (ix2 (0 : Fin 1) r) (ix3 (0 : Fin 1) (0 : Fin 1) r) (by
    rw [Shape.rowMajor_val_three, Shape.rowMajor_val_two]; show (0 * 1 + 0) * 2048 + r.val = 0 * 2048 + r.val; omega)

/-- The `[1, 512, 512]` plane seen as a `[512, 512]` matrix keeps its cells in place … -/
theorem cast_plane_drop {α : Type} (x : S1x512x512.Idx → α) (h w : Fin 512) :
    shapeCast S512x512 x Gen.shapeCasts_S1x512x512_S512x512 (ix2 h w) = x (ix3 (0 : Fin 1) h w) :=
  shapeCast_apply x _ (ix2 h w) (ix3 (0 : Fin 1) h w) (by
    rw [Shape.rowMajor_val_three, Shape.rowMajor_val_two]; show (0 * 512 + h.val) * 512 + w.val = h.val * 512 + w.val; omega)

/-- … and so does the matrix seen again as a plane. -/
theorem cast_plane_add {α : Type} (x : S512x512.Idx → α) (h w : Fin 512) :
    shapeCast S1x512x512 x Gen.shapeCasts_S512x512_S1x512x512 (ix3 (0 : Fin 1) h w) = x (ix2 h w) :=
  shapeCast_apply x _ (ix3 (0 : Fin 1) h w) (ix2 h w) (by
    rw [Shape.rowMajor_val_three, Shape.rowMajor_val_two]; show h.val * 512 + w.val = (0 * 512 + h.val) * 512 + w.val; omega)

/-! ## The matrices' entries -/

/-- Entry `(h, r)` of the row matrix: 1 when point `r`'s row word, read signed, is `h`, else 0. -/
theorem rowsMat_apply (xrow : Vec Ideal S1x1x2048 .i32) (h : Fin 512) (r : Fin 2048) :
    rowsMat xrow (ix2 h r)
      = if (xrow (ix3 (0 : Fin 1) (0 : Fin 1) r)).toInt = (h.val : Int) then (1 : EReal) else 0 := by
  have e2 : iota .tc S512x2048 32 [0] Gen.iota_S512x2048_d0_w32 (ix2 h r) = BitVec.ofNat 32 h.val :=
    iota_single_apply _ _ _ _ _ _
  show Scalar.select (IntOp.cmpi .eq (iota .tc S512x2048 32 [0] Gen.iota_S512x2048_d0_w32 (ix2 h r))
      (broadcastTo S512x2048 (shapeCast S1x2048 xrow Gen.shapeCasts_S1x1x2048_S1x2048) Gen.broadcasts_S1x2048_S512x2048 (ix2 h r)))
      (Ideal.ofBits .f32 0x3F800000#32) (Ideal.ofBits .f32 0x00000000#32) = _
  rw [e2, bcast_row, cast_row, one_f32, Ideal.ofBits_zero_f32]
  exact select_of_iff _ _ (hit_iff h.val h.isLt _) _ _

/-- Entry `r` of the masked column: the feature times 1 or 0. -/
theorem maskedFeat_apply (kp : Fin 2) (nv : BitVec 32) (xfeat : Vec Ideal S1x2048x1 .f32) (r : Fin 2048) :
    maskedFeat kp.val nv xfeat (ix2 r (0 : Fin 1))
      = xfeat (ix3 (0 : Fin 1) r (0 : Fin 1))
        * (if ((kp.val * 2048 + r.val : Nat) : Int) < nv.toInt then (1 : EReal) else 0) := by
  have e2 : iota .tc S2048x1 32 [0] Gen.iota_S2048x1_d0_w32 (ix2 r (0 : Fin 1)) = BitVec.ofNat 32 r.val :=
    iota_single_apply _ _ _ _ _ _
  show shapeCast S2048x1 xfeat Gen.shapeCasts_S1x2048x1_S2048x1 (ix2 r (0 : Fin 1))
      * FloatOps.sitofp (F := Ideal) .f32 ((IntOp.cmpi .slt (IntOp.addi (Scalar.muli (BitVec.ofNat 32 kp.val) 2048#32)
          (iota .tc S2048x1 32 [0] Gen.iota_S2048x1_d0_w32 (ix2 r (0 : Fin 1)))) nv).setWidth 32) = _
  rw [cast_col, e2, sitofp_extui_bit]
  congr 1
  by_cases hP : ((kp.val * 2048 + r.val : Nat) : Int) < nv.toInt
  · rw [if_pos hP, if_pos ((mask_iff kp nv r).mpr hP)]
  · rw [if_neg hP, if_neg (fun h => hP ((mask_iff kp nv r).mp h))]

/-- Entry `(r, w)` of the column matrix: the masked feature when point `r`'s column word, read signed, is `w`,
    else 0. -/
theorem colsMat_apply (kp : Fin 2) (nv : BitVec 32) (xfeat : Vec Ideal S1x2048x1 .f32) (xcol : Vec Ideal S1x2048x1 .i32)
    (r : Fin 2048) (w : Fin 512) :
    colsMat kp.val nv xfeat xcol (ix2 r w)
      = if (xcol (ix3 (0 : Fin 1) r (0 : Fin 1))).toInt = (w.val : Int)
        then xfeat (ix3 (0 : Fin 1) r (0 : Fin 1))
          * (if ((kp.val * 2048 + r.val : Nat) : Int) < nv.toInt then (1 : EReal) else 0)
        else 0 := by
  have e3 : iota .tc S2048x512 32 [1] Gen.iota_S2048x512_d1_w32 (ix2 r w) = BitVec.ofNat 32 w.val :=
    iota_single_apply _ _ _ _ _ _
  show Scalar.select (IntOp.cmpi .eq (iota .tc S2048x512 32 [1] Gen.iota_S2048x512_d1_w32 (ix2 r w))
      (broadcastTo S2048x512 (shapeCast S2048x1 xcol Gen.shapeCasts_S1x2048x1_S2048x1) Gen.broadcasts_S2048x1_S2048x512 (ix2 r w)))
      (broadcastTo S2048x512 (shapeCast S2048x1 (maskedFeat kp.val nv xfeat) Gen.shapeCasts_S2048x1_S2048x1)
        Gen.broadcasts_S2048x1_S2048x512 (ix2 r w))
      (Ideal.ofBits .f32 0x00000000#32) = _
  rw [e3, bcast_col, bcast_col, cast_col, shapeCast_self, maskedFeat_apply, Ideal.ofBits_zero_f32]
  exact select_of_iff _ _ (hit_iff w.val w.isLt _) _ _

/-- One term of the product: `1 * feature`, `1 * 0`, `0 * feature` or `0 * 0` — the feature exactly when the point
    is valid and lies in the cell. -/
theorem term_eq (kp : Fin 2) (nv : BitVec 32) (xfeat : Vec Ideal S1x2048x1 .f32) (xcol : Vec Ideal S1x2048x1 .i32)
    (xrow : Vec Ideal S1x1x2048 .i32) (h w : Fin 512) (r : Fin 2048) :
    rowsMat xrow (ix2 h r) * colsMat kp.val nv xfeat xcol (ix2 r w) = tileTerm kp nv xfeat xcol xrow h w r := by
  rw [rowsMat_apply, colsMat_apply]
  unfold tileTerm
  by_cases hA : (xrow (ix3 (0 : Fin 1) (0 : Fin 1) r)).toInt = (h.val : Int) <;>
  by_cases hB : (xcol (ix3 (0 : Fin 1) r (0 : Fin 1))).toInt = (w.val : Int) <;>
  by_cases hC : ((kp.val * 2048 + r.val : Nat) : Int) < nv.toInt <;>
  simp [hA, hB, hC]

/-! ## The product at a cell -/

/-- The left factor's row coordinate is the cell's row … -/
theorem lhs_axis0 (j : S512x512.Idx) (k : dot_S512x2048_S2048x512_S512x512_1_0_0_1_n_n.contr.Idx) :
    (dot_S512x2048_S2048x512_S512x512_1_0_0_1_n_n.lhsIdx j k 0).val = (j 0).val := by
  unfold DotDims.lhsIdx
  rw [dif_neg (show ¬ (0 : Fin S512x2048.rank) ∈ dot_S512x2048_S2048x512_S512x512_1_0_0_1_n_n.lhsBatch by decide),
    dif_pos (show (0 : Fin S512x2048.rank) ∈ dot_S512x2048_S2048x512_S512x512_1_0_0_1_n_n.lhsNonContracting by decide)]
  rfl

/-- … its column coordinate the summation index … -/
theorem lhs_axis1 (j : S512x512.Idx) (k : dot_S512x2048_S2048x512_S512x512_1_0_0_1_n_n.contr.Idx) :
    (dot_S512x2048_S2048x512_S512x512_1_0_0_1_n_n.lhsIdx j k 1).val = (k ⟨0, by decide⟩).val :=
  dot_S512x2048_S2048x512_S512x512_1_0_0_1_n_n.lhsIdx_val_of_single rfl j k

/-- … the right factor's row coordinate the summation index … -/
theorem rhs_axis0 (j : S512x512.Idx) (k : dot_S512x2048_S2048x512_S512x512_1_0_0_1_n_n.contr.Idx) :
    (dot_S512x2048_S2048x512_S512x512_1_0_0_1_n_n.rhsIdx j k 0).val = (k ⟨0, by decide⟩).val :=
  dot_S512x2048_S2048x512_S512x512_1_0_0_1_n_n.rhsIdx_val_of_single rfl j k

/-- … and its column coordinate the cell's column. -/
theorem rhs_axis1 (j : S512x512.Idx) (k : dot_S512x2048_S2048x512_S512x512_1_0_0_1_n_n.contr.Idx) :
    (dot_S512x2048_S2048x512_S512x512_1_0_0_1_n_n.rhsIdx j k 1).val = (j 1).val := by
  unfold DotDims.rhsIdx
  rw [dif_neg (show ¬ (1 : Fin S2048x512.rank) ∈ dot_S512x2048_S2048x512_S512x512_1_0_0_1_n_n.rhsBatch by decide),
    dif_pos (show (1 : Fin S2048x512.rank) ∈ dot_S512x2048_S2048x512_S512x512_1_0_0_1_n_n.rhsNonContracting by decide)]
  rfl

/-- The product of a 512 × 2048 and a 2048 × 512 matrix, started from zero, at cell `(h, w)`: the sum over the 2048
    points of the products of the entries `(h, r)` and `(r, w)`. -/
theorem matmul_hw (L : FVec Ideal S512x2048 .bf16) (R : FVec Ideal S2048x512 .bf16) (h w : Fin 512) :
    matmul dot_S512x2048_S2048x512_S512x512_1_0_0_1_n_n none L R (constant (F := Ideal) S512x512 .f32 0x00000000#32) (ix2 h w)
      = ∑ r : Fin 2048, L (ix2 h r) * R (ix2 r w) := by
  show FloatOps.matmul dot_S512x2048_S2048x512_S512x512_1_0_0_1_n_n none L R (constant (F := Ideal) S512x512 .f32 0x00000000#32) (ix2 h w) = _
  rw [Ideal.matmul_constant_zero_apply,
    ← Equiv.sum_comp (contrEquiv1 dot_S512x2048_S2048x512_S512x512_1_0_0_1_n_n 2048 rfl rfl).symm]
  refine Finset.sum_congr rfl fun r _ => ?_
  have hk := contrEquiv1_symm_val dot_S512x2048_S2048x512_S512x512_1_0_0_1_n_n 2048 rfl rfl r
  have el : dot_S512x2048_S2048x512_S512x512_1_0_0_1_n_n.lhsIdx (ix2 h w) ((contrEquiv1 dot_S512x2048_S2048x512_S512x512_1_0_0_1_n_n 2048 rfl rfl).symm r) = ix2 h r := by
    funext a
    refine Fin.ext ?_
    match a with
    | ⟨0, _⟩ => exact lhs_axis0 _ _
    | ⟨1, _⟩ => exact (lhs_axis1 _ _).trans hk
  have er : dot_S512x2048_S2048x512_S512x512_1_0_0_1_n_n.rhsIdx (ix2 h w) ((contrEquiv1 dot_S512x2048_S2048x512_S512x512_1_0_0_1_n_n 2048 rfl rfl).symm r) = ix2 r w := by
    funext a
    refine Fin.ext ?_
    match a with
    | ⟨0, _⟩ => exact (rhs_axis0 _ _).trans hk
    | ⟨1, _⟩ => exact rhs_axis1 _ _
  rw [el, er]

/-! ## The accumulating store -/

/-- The accumulating store's plane at cell `(h, w)`: what the plane held there plus the tile's 2048 terms. -/
theorem pay2_apply (i : grid0.Coords) (nv : BitVec 32) (xfeat : Vec Ideal S1x2048x1 .f32) (xcol : Vec Ideal S1x2048x1 .i32)
    (xrow : Vec Ideal S1x1x2048 .i32) (prev : Vec Ideal S1x512x512 .f32) (h w : Fin 512) :
    Gen.k0_pay2 (F := Ideal) i nv xfeat xcol xrow prev (ix3 (0 : Fin 1) h w)
      = prev (ix3 (0 : Fin 1) h w) + ∑ r : Fin 2048, tileTerm (i 1) nv xfeat xcol xrow h w r := by
  rw [pay2_eq, cast_plane_add, addf_apply, cast_plane_drop, matmul_hw]
  congr 1
  exact Finset.sum_congr rfl fun r _ => term_eq (i 1) nv xfeat xcol xrow h w r

end Cert.Densify.Tile

end
-- ==== Proof.TileSum.lean ====
/-
  The two tiles of a sample, put together.

  A sample's 4096 points are the 2048 points of tile 0 followed by the 2048 of tile 1: point `r` of tile `kp`
  is the sample's point `kp * 2048 + r`. When the tiles' blocks are the corresponding stretches of the arrays,
  a tile point's term is that sample point's contribution, and the two tiles' sums together are the sum over the
  whole sample. The kernel skips a tile when the count is at most the tile's first position; then every point
  of the tile sits at or beyond the count, none is valid, and the tile's sum is zero anyway.
-/
import proofs.«424259_j87522843560476_3_alg».proof.Proof.Spec
import proofs.«424259_j87522843560476_3_alg».proof.Proof.TileValue

noncomputable section

open scoped BigOperators

namespace Cert.Densify.Tile

open Idealize.ShloMosaic Idealize.ShloMosaic.ValueIdx Cert.Densify Cert.KernelIdeal

/-- The sample's point that is point `r` of tile `kp`. -/
def pos (kp : Fin 2) (r : Fin 2048) : Fin 4096 := ⟨kp.val * 2048 + r.val, by have := kp.isLt; have := r.isLt; omega⟩

/-- The branch that adds a tile is taken exactly when the count, read signed, exceeds the tile's first position. -/
theorem cond2_iff (i : grid0.Coords) (v : BitVec 32) :
    k0_cond2 i v = 1#1 ↔ (((i 1).val * 2048 : Nat) : Int) < v.toInt := by
  have h2 : (i 1).val < 2 := (i 1).isLt
  unfold k0_cond2
  dsimp only
  rw [Scalar.guard_iff, Scalar.cmpi, IntOp.cmpi_sgt]
  -- the tile's number is 0 or 1, so the product word is 0 or 2048 and reads the same signed
  have e : (Scalar.muli (BitVec.ofNat 32 (i 1).val) 2048#32).toInt = (((i 1).val * 2048 : Nat) : Int) := by
    generalize (i 1).val = n at h2
    interval_cases n <;> decide
  rw [e]

/-- A skipped tile would have added nothing: all of its points are at or beyond the count. -/
theorem tileSum_eq_zero_of_skipped (kp : Fin 2) (v : BitVec 32) (xfeat : Vec Ideal S1x2048x1 .f32)
    (xcol : Vec Ideal S1x2048x1 .i32) (xrow : Vec Ideal S1x1x2048 .i32) (h w : Fin 512)
    (hskip : ¬ (((kp.val * 2048 : Nat) : Int) < v.toInt)) :
    ∑ r : Fin 2048, tileTerm kp v xfeat xcol xrow h w r = 0 := by
  refine Finset.sum_eq_zero fun r _ => ?_
  unfold tileTerm
  -- the point's position is at least the tile's first, which the count does not exceed
  exact if_neg fun hc => hskip (by have := hc.1; omega)

/-- A sum over a sample's 4096 points is the sum over tile 0's points plus the sum over tile 1's. -/
theorem sum_halves (f : Fin 4096 → EReal) :
    ∑ p : Fin 4096, f p = (∑ r : Fin 2048, f (pos 0 r)) + ∑ r : Fin 2048, f (pos 1 r) := by
  refine (Fin.sum_univ_add (a := 2048) (b := 2048) fun p : Fin (2048 + 2048) => f p).trans ?_
  have e0 : ∀ r : Fin 2048, Fin.castAdd 2048 r = pos 0 r := fun r => Fin.ext (by
    show r.val = 0 * 2048 + r.val
    omega)
  have e1 : ∀ r : Fin 2048, Fin.natAdd 2048 r = pos 1 r := fun r => Fin.ext (by
    show 2048 + r.val = 1 * 2048 + r.val
    omega)
  simp only [e0, e1]

/-- A tile point's term is the contribution of the sample's point it is, when the tile's blocks hold that
    point's two coordinates and its feature: the two conditions are then one proposition. -/
theorem tileTerm_eq_contrib (idx : Coords) (nv : Counts) (feat : Feats) (b : Fin 256) (h w : Fin 512) (kp : Fin 2)
    (xrow : Vec Ideal S1x1x2048 .i32) (xcol : Vec Ideal S1x2048x1 .i32) (xfeat : Vec Ideal S1x2048x1 .f32)
    (hrow : ∀ r : Fin 2048, xrow (ix3 (0 : Fin 1) (0 : Fin 1) r) = idx (ix3 b (pos kp r) (0 : Fin 2)))
    (hcol : ∀ r : Fin 2048, xcol (ix3 (0 : Fin 1) r (0 : Fin 1)) = idx (ix3 b (pos kp r) (1 : Fin 2)))
    (hfeat : ∀ r : Fin 2048, xfeat (ix3 (0 : Fin 1) r (0 : Fin 1)) = feat (ix3 b (pos kp r) (0 : Fin 1)))
    (r : Fin 2048) :
    tileTerm kp (nv (ix1 b)) xfeat xcol xrow h w r = contrib idx nv feat b h w (pos kp r) := by
  unfold tileTerm contrib
  rw [hrow, hcol, hfeat]
  by_cases hc : Valid nv b (pos kp r) ∧ Hits idx b (pos kp r) h w
  · rw [if_pos hc]; exact if_pos hc
  · rw [if_neg hc]; exact if_neg hc

/-- The two tiles' sums are the sample's sum, when each tile's blocks are its stretch of the arrays. -/
theorem tiles_eq_dense (idx : Coords) (nv : Counts) (feat : Feats) (b : Fin 256) (h w : Fin 512)
    (xrow : Fin 2 → Vec Ideal S1x1x2048 .i32) (xcol : Fin 2 → Vec Ideal S1x2048x1 .i32)
    (xfeat : Fin 2 → Vec Ideal S1x2048x1 .f32)
    (hrow : ∀ (kp : Fin 2) (r : Fin 2048), xrow kp (ix3 (0 : Fin 1) (0 : Fin 1) r) = idx (ix3 b (pos kp r) (0 : Fin 2)))
    (hcol : ∀ (kp : Fin 2) (r : Fin 2048), xcol kp (ix3 (0 : Fin 1) r (0 : Fin 1)) = idx (ix3 b (pos kp r) (1 : Fin 2)))
    (hfeat : ∀ (kp : Fin 2) (r : Fin 2048), xfeat kp (ix3 (0 : Fin 1) r (0 : Fin 1)) = feat (ix3 b (pos kp r) (0 : Fin 1))) :
    (∑ r : Fin 2048, tileTerm 0 (nv (ix1 b)) (xfeat 0) (xcol 0) (xrow 0) h w r)
      + (∑ r : Fin 2048, tileTerm 1 (nv (ix1 b)) (xfeat 1) (xcol 1) (xrow 1) h w r)
      = dense idx nv feat b h w := by
  rw [dense, sum_halves]
  congr 1
  · exact Finset.sum_congr rfl fun r _ => tileTerm_eq_contrib idx nv feat b h w _ _ _ _ (hrow 0) (hcol 0) (hfeat 0) r
  · exact Finset.sum_congr rfl fun r _ => tileTerm_eq_contrib idx nv feat b h w _ _ _ _ (hrow 1) (hcol 1) (hfeat 1) r

end Cert.Densify.Tile

end
-- ==== Proof.KiValueReads.lean ====
/-
  What the idealized kernel reads, as entries of the argument arrays.

  Point `t` of the grid is tile `t % 2` of sample `t / 2`. The row and column arrays the region is given are the
  two halves of the coordinate pairs: the four host operations before the region slice the pairs' first words out
  and move the unit axis to the middle, and slice the second words out. A window's block is read off its array at
  block index times block size plus the place inside the block, and the index maps send a point to its sample and
  its tile. The count word a point loads is its sample's entry of the table of counts.
-/
import proofs.«424259_j87522843560476_3_alg».proof.Proof.KiData
import Idealize.ShloMosaic.Lib.Pipeline.Value
import Idealize.ShloMosaic.Lib.StableHlo.Run
import Idealize.ShloMosaic.Lib.ValueIdx

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-! ## The schedule and the index maps, decided over the 512 points

Point `t` is tile `t % 2` of sample `t / 2`; every window's block index on its sample axis is the sample, the three
inputs' block index on the point axis is the tile, and the plane's block index is the sample alone. -/

theorem coords_facts : ∀ t : Fin grid0.N, (grid0.coords t 0).val = t.val / 2 ∧ (grid0.coords t 1).val = t.val % 2 := by
  decide +kernel

theorem rows_index : ∀ t : Fin grid0.N, cc0_transform_0 (grid0.coords t) 0 = t.val / 2 ∧ cc0_transform_0 (grid0.coords t) 1 = 0
    ∧ cc0_transform_0 (grid0.coords t) 2 = t.val % 2 := by
  decide +kernel

theorem cols_index : ∀ t : Fin grid0.N, cc0_transform_1 (grid0.coords t) 0 = t.val / 2 ∧ cc0_transform_1 (grid0.coords t) 1 = t.val % 2
    ∧ cc0_transform_1 (grid0.coords t) 2 = 0 := by
  decide +kernel

theorem feats_index : ∀ t : Fin grid0.N, cc0_transform_2 (grid0.coords t) 0 = t.val / 2 ∧ cc0_transform_2 (grid0.coords t) 1 = t.val % 2
    ∧ cc0_transform_2 (grid0.coords t) 2 = 0 := by
  decide +kernel

theorem plane_index : ∀ t : Fin grid0.N, cc0_transform_3 (grid0.coords t) 0 = t.val / 2 ∧ cc0_transform_3 (grid0.coords t) 1 = 0
    ∧ cc0_transform_3 (grid0.coords t) 2 = 0 := by
  decide +kernel

/-! ## The row and column arrays are the two halves of the coordinate pairs -/

/-- The row array as the host operations compute it: the pairs' first words, the unit axis moved to the middle. -/
theorem rowArr_eq (c : Dev nD) : (V m c main_v2 : S256x1x4096.Idx → BitVec 32)
    = broadcastInDim S256x1x4096 ![0, 2] bcast_S256x4096_S256x1x4096_0_2
        (shapeCast S256x4096 (extractStridedSlice S256x4096x1 ![0, 0, 0] (m ((c.tc : Thread nD τ).loc main_arg0)) slices_S256x4096x2_S256x4096x1_0_0_0)
          shapeCasts_S256x4096x1_S256x4096) := by
  dsimp only [V, hostOps0]
  after_results
  rfl

/-- The column array as the host operations compute it: the pairs' second words. -/
theorem colArr_eq (c : Dev nD) : (V m c main_v3 : S256x4096x1.Idx → BitVec 32)
    = extractStridedSlice S256x4096x1 ![0, 0, 1] (m ((c.tc : Thread nD τ).loc main_arg0)) slices_S256x4096x2_S256x4096x1_0_0_1 := by
  dsimp only [V, hostOps0]
  after_results

/-- The row array at `(b, 0, p)` is the first word of point `p`'s pair. -/
theorem rowArr_apply (c : Dev nD) (b : Fin 256) (p : Fin 4096) :
    (V m c main_v2 : S256x1x4096.Idx → BitVec 32) (ix3 b (0 : Fin 1) p)
      = (m ((c.tc : Thread nD τ).loc main_arg0) : S256x4096x2.Idx → BitVec 32) (ix3 b p (0 : Fin 2)) := by
  rw [rowArr_eq]
  refine (broadcastInDim_apply _ _ _ (ix3 b (0 : Fin 1) p) (ix2 b p) (fun a => ?_)).trans ?_
  · match a with
    | ⟨0, _⟩ => rfl
    | ⟨1, _⟩ => rfl
  refine (shapeCast_apply _ _ (ix2 b p) (ix3 b p (0 : Fin 1)) ?_).trans ?_
  · rw [Shape.rowMajor_val_three, Shape.rowMajor_val_two]
    show (b.val * 4096 + p.val) * 1 + 0 = b.val * 4096 + p.val
    omega
  refine extractStridedSlice_apply _ _ _ (ix3 b p (0 : Fin 1)) (ix3 b p (0 : Fin 2)) (fun a => ?_)
  match a with
  | ⟨0, _⟩ => show b.val = 0 + b.val; omega
  | ⟨1, _⟩ => show p.val = 0 + p.val; omega
  | ⟨2, _⟩ => show (0 : Nat) = 0 + 0; omega

/-- The column array at `(b, p, 0)` is the second word of point `p`'s pair. -/
theorem colArr_apply (c : Dev nD) (b : Fin 256) (p : Fin 4096) :
    (V m c main_v3 : S256x4096x1.Idx → BitVec 32) (ix3 b p (0 : Fin 1))
      = (m ((c.tc : Thread nD τ).loc main_arg0) : S256x4096x2.Idx → BitVec 32) (ix3 b p (1 : Fin 2)) := by
  rw [colArr_eq]
  refine extractStridedSlice_apply _ _ _ (ix3 b p (0 : Fin 1)) (ix3 b p (1 : Fin 2)) (fun a => ?_)
  match a with
  | ⟨0, _⟩ => show b.val = 0 + b.val; omega
  | ⟨1, _⟩ => show p.val = 0 + p.val; omega
  | ⟨2, _⟩ => show (1 : Nat) = 1 + 0; omega

/-! ## A block's entry is its array's entry: block index times block size, plus the place inside the block -/

theorem rowBlk_apply (c : Dev nD) (t : Fin (cfgM m).N) (x : S1x1x2048.Idx) (k : S256x1x4096.Idx)
    (hk0 : (k 0).val = t.val / 2) (hk1 : (k 1).val = 0) (hk2 : (k 2).val = (t.val % 2) * 2048 + (x 2).val) :
    (iblk m c 0 t : Vec Ideal S1x1x2048 .i32) x = (V m c main_v2 : S256x1x4096.Idx → BitVec 32) k := by
  obtain ⟨e0, e1, e2⟩ := rows_index t
  show V m c main_v2 ((((cfgM m).win 0).blk t).view.emb x) = V m c main_v2 k
  congr 1
  funext a
  apply Fin.ext
  match a with
  | ⟨0, _⟩ =>
    show cc0_transform_0 (grid0.coords t) 0 * 1 + 1 * (x 0).val = (k 0).val
    have : (x 0).val < 1 := (x 0).isLt
    rw [e0, hk0]; omega
  | ⟨1, _⟩ =>
    show cc0_transform_0 (grid0.coords t) 1 * 1 + 1 * (x 1).val = (k 1).val
    have : (x 1).val < 1 := (x 1).isLt
    rw [e1, hk1]; omega
  | ⟨2, _⟩ =>
    show cc0_transform_0 (grid0.coords t) 2 * 2048 + 1 * (x 2).val = (k 2).val
    rw [e2, hk2]; omega

theorem colBlk_apply (c : Dev nD) (t : Fin (cfgM m).N) (x : S1x2048x1.Idx) (k : S256x4096x1.Idx)
    (hk0 : (k 0).val = t.val / 2) (hk1 : (k 1).val = (t.val % 2) * 2048 + (x 1).val) (hk2 : (k 2).val = 0) :
    (iblk m c 1 t : Vec Ideal S1x2048x1 .i32) x = (V m c main_v3 : S256x4096x1.Idx → BitVec 32) k := by
  obtain ⟨e0, e1, e2⟩ := cols_index t
  show V m c main_v3 ((((cfgM m).win 1).blk t).view.emb x) = V m c main_v3 k
  congr 1
  funext a
  apply Fin.ext
  match a with
  | ⟨0, _⟩ =>
    show cc0_transform_1 (grid0.coords t) 0 * 1 + 1 * (x 0).val = (k 0).val
    have : (x 0).val < 1 := (x 0).isLt
    rw [e0, hk0]; omega
  | ⟨1, _⟩ =>
    show cc0_transform_1 (grid0.coords t) 1 * 2048 + 1 * (x 1).val = (k 1).val
    rw [e1, hk1]; omega
  | ⟨2, _⟩ =>
    show cc0_transform_1 (grid0.coords t) 2 * 1 + 1 * (x 2).val = (k 2).val
    have : (x 2).val < 1 := (x 2).isLt
    rw [e2, hk2]; omega

theorem featBlk_apply (c : Dev nD) (t : Fin (cfgM m).N) (x : S1x2048x1.Idx) (k : S256x4096x1.Idx)
    (hk0 : (k 0).val = t.val / 2) (hk1 : (k 1).val = (t.val % 2) * 2048 + (x 1).val) (hk2 : (k 2).val = 0) :
    (iblk m c 2 t : Vec Ideal S1x2048x1 .f32) x = (V m c main_arg2 : S256x4096x1.Idx → EReal) k := by
  obtain ⟨e0, e1, e2⟩ := feats_index t
  show V m c main_arg2 ((((cfgM m).win 2).blk t).view.emb x) = V m c main_arg2 k
  congr 1
  funext a
  apply Fin.ext
  match a with
  | ⟨0, _⟩ =>
    show cc0_transform_2 (grid0.coords t) 0 * 1 + 1 * (x 0).val = (k 0).val
    have : (x 0).val < 1 := (x 0).isLt
    rw [e0, hk0]; omega
  | ⟨1, _⟩ =>
    show cc0_transform_2 (grid0.coords t) 1 * 2048 + 1 * (x 1).val = (k 1).val
    rw [e1, hk1]; omega
  | ⟨2, _⟩ =>
    show cc0_transform_2 (grid0.coords t) 2 * 1 + 1 * (x 2).val = (k 2).val
    have : (x 2).val < 1 := (x 2).isLt
    rw [e2, hk2]; omega

/-! ## The count word -/

/-- The count word a point loads is its sample's entry of the table of counts. -/
theorem wordAt_eq (c : Dev nD) (t : Fin (cfgM m).N) (b : Fin 256) (hb : b.val = t.val / 2) :
    wordAt m c t = (m ((c.tc : Thread nD τ).loc main_arg1) : S256.Idx → BitVec 32) (ix1 b) := by
  obtain rfl : c = 0 := Subsingleton.elim _ _
  show (V m 0 main_arg1 : S256.Idx → BitVec 32) ((Rect.unit (s := S256) (k0_off1 (grid0.coords t)) S1.size (k0_off1_inb (grid0.coords t))).toLoadRect.idx (Shape.Idx.first (numel1_S1.symm ▸ Nat.one_pos))) = _
  rw [V_main_arg1]
  congr 1
  funext a
  apply Fin.ext
  match a with
  | ⟨0, _⟩ =>
    show k0_off1 (grid0.coords t) 0 + 1 * 0 = b.val
    rw [k0_off1_eq, hb, ← (coords_facts t).1]
    rfl

end Cert.KernelIdeal.HandValue

end
-- ==== Proof.KiValue.lean ====
/-
  The idealized kernel's output array after the run is the dense tensor of the argument arrays.

  The region's output array is written back once per sample, at the sample's odd point, with the plane the body
  left there: the plane of zeros of the even point's reset, plus tile 0's sum unless tile 0 was skipped, plus
  tile 1's sum unless tile 1 was skipped. A skipped tile's sum is zero anyway, the tiles' blocks are the tiles'
  stretches of the row, column and feature arrays — the row and column arrays being the two halves of the
  coordinate pairs, as the four host operations before the region laid them out —, and the count word is the
  sample's entry of the table. So the plane is the sample's slice of the dense tensor, and the 256 planes, one per
  sample, tile the output array.
-/
import proofs.«424259_j87522843560476_3_alg».proof.Proof.KiData
import proofs.«424259_j87522843560476_3_alg».proof.Proof.SpecArr
import proofs.«424259_j87522843560476_3_alg».proof.Proof.TileValue
import proofs.«424259_j87522843560476_3_alg».proof.Proof.TileSum
import proofs.«424259_j87522843560476_3_alg».proof.Proof.KiValueReads

set_option maxRecDepth 16384

noncomputable section

open scoped BigOperators

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Densify Cert.Densify.Tile

variable (m : (ℓ : Loc nD τ sig) → Buf (Elt Ideal) ℓ)

/-! ## One step of the plane, at a cell -/

/-- A step at cell `(h, w)`: what the plane held there — zero, after a reset — plus the tile's 2048 terms; a
    skipped tile's terms are all zero, so the sum may be written in whether the tile is skipped or not. -/
theorem stepOut_apply (i : grid0.Coords) (v : BitVec 32) (xrow : Vec Ideal S1x1x2048 .i32) (xcol : Vec Ideal S1x2048x1 .i32)
    (xfeat : Vec Ideal S1x2048x1 .f32) (prev : Vec Ideal S1x512x512 .f32) (h w : Fin 512) :
    stepOut (F := Ideal) i v xrow xcol xfeat prev (ix3 (0 : Fin 1) h w)
      = (if k0_cond1 i = 1#1 then (0 : EReal) else prev (ix3 (0 : Fin 1) h w))
        + ∑ r : Fin 2048, tileTerm (i 1) v xfeat xcol xrow h w r := by
  have hbase : (if k0_cond1 i = 1#1 then k0_pay1 (F := Ideal) else prev) (ix3 (0 : Fin 1) h w)
      = if k0_cond1 i = 1#1 then (0 : EReal) else prev (ix3 (0 : Fin 1) h w) := by
    by_cases h1 : k0_cond1 i = 1#1
    · rw [if_pos h1, if_pos h1]; exact pay1_apply h w
    · rw [if_neg h1, if_neg h1]
  unfold stepOut
  by_cases h2 : k0_cond2 i v = 1#1
  · rw [if_pos h2, pay2_apply, hbase]
  · rw [if_neg h2, hbase, tileSum_eq_zero_of_skipped (i 1) v xfeat xcol xrow h w (fun hlt => h2 ((cond2_iff i v).mpr hlt)),
      add_zero]

/-- The plane after an even point, at a cell: the point's tile's sum. -/
theorem planeAt_even_apply (c : Dev nD) (t : Fin (cfgM m).N) (ht : t.val % 2 = 0) (h w : Fin 512) :
    planeAt m c t.val t.isLt (ix3 (0 : Fin 1) h w)
      = ∑ r : Fin 2048, tileTerm (grid0.coords t 1) (wordAt m c t) (iblk m c 2 t) (iblk m c 1 t) (iblk m c 0 t) h w r := by
  rw [planeAt_even m c t ht (k0_pay1 (F := Ideal))]
  refine (stepOut_apply _ _ _ _ _ _ h w).trans ?_
  rw [if_pos ((hcond1 m t).mpr ht), zero_add]

/-- The plane after an odd point, at a cell: what the point before left there plus the point's tile's sum. -/
theorem planeAt_odd_apply (c : Dev nD) (t : Fin (cfgM m).N) (ht : t.val % 2 = 1) (h w : Fin 512) :
    planeAt m c t.val t.isLt (ix3 (0 : Fin 1) h w)
      = planeAt m c (t.val - 1) (Nat.lt_of_le_of_lt (Nat.sub_le _ _) t.isLt) (ix3 (0 : Fin 1) h w)
        + ∑ r : Fin 2048, tileTerm (grid0.coords t 1) (wordAt m c t) (iblk m c 2 t) (iblk m c 1 t) (iblk m c 0 t) h w r := by
  rw [planeAt_pos m c t (by omega)]
  refine (stepOut_apply _ _ _ _ _ _ h w).trans ?_
  rw [if_neg (fun hc => by have := (hcond1 m t).mp hc; omega)]

/-- The plane at a position does not depend on how the position is written. -/
theorem planeAt_congr (c : Dev nD) {n n' : ℕ} (e : n = n') (hn : n < (cfgM m).N) (hn' : n' < (cfgM m).N) :
    planeAt m c n hn = planeAt m c n' hn' := by
  subst e; rfl

/-! ## The two points of a sample -/

/-- Tile `kp` of sample `b` is point `2 * b + kp`. -/
def pt (b : Fin 256) (kp : Fin 2) : Fin (cfgM m).N :=
  ⟨2 * b.val + kp.val, by have := b.isLt; have := kp.isLt; show _ < grid0.N; rw [N_0]; omega⟩

theorem pt_val (b : Fin 256) (kp : Fin 2) : (pt m b kp).val = 2 * b.val + kp.val := rfl

/-- The tile's row block is its stretch of the pairs' first words, -/
theorem rowBlk_pt (c : Dev nD) (b : Fin 256) (kp : Fin 2) (r : Fin 2048) :
    (iblk m c 0 (pt m b kp) : Vec Ideal S1x1x2048 .i32) (ix3 (0 : Fin 1) (0 : Fin 1) r)
      = (m ((c.tc : Thread nD τ).loc main_arg0) : S256x4096x2.Idx → BitVec 32) (ix3 b (pos kp r) (0 : Fin 2)) := by
  have hk := kp.isLt
  refine (rowBlk_apply m c (pt m b kp) (ix3 (0 : Fin 1) (0 : Fin 1) r) (ix3 b (0 : Fin 1) (pos kp r)) ?_ rfl ?_).trans
    (rowArr_apply m c b (pos kp r))
  · show b.val = (2 * b.val + kp.val) / 2
    omega
  · show kp.val * 2048 + r.val = (2 * b.val + kp.val) % 2 * 2048 + r.val
    have : (2 * b.val + kp.val) % 2 = kp.val := by omega
    rw [this]

/-- its column block its stretch of their second words, -/
theorem colBlk_pt (c : Dev nD) (b : Fin 256) (kp : Fin 2) (r : Fin 2048) :
    (iblk m c 1 (pt m b kp) : Vec Ideal S1x2048x1 .i32) (ix3 (0 : Fin 1) r (0 : Fin 1))
      = (m ((c.tc : Thread nD τ).loc main_arg0) : S256x4096x2.Idx → BitVec 32) (ix3 b (pos kp r) (1 : Fin 2)) := by
  have hk := kp.isLt
  refine (colBlk_apply m c (pt m b kp) (ix3 (0 : Fin 1) r (0 : Fin 1)) (ix3 b (pos kp r) (0 : Fin 1)) ?_ ?_ rfl).trans
    (colArr_apply m c b (pos kp r))
  · show b.val = (2 * b.val + kp.val) / 2
    omega
  · show kp.val * 2048 + r.val = (2 * b.val + kp.val) % 2 * 2048 + r.val
    have : (2 * b.val + kp.val) % 2 = kp.val := by omega
    rw [this]

/-- and its feature block its stretch of the features. -/
theorem featBlk_pt (c : Dev nD) (b : Fin 256) (kp : Fin 2) (r : Fin 2048) :
    (iblk m c 2 (pt m b kp) : Vec Ideal S1x2048x1 .f32) (ix3 (0 : Fin 1) r (0 : Fin 1))
      = (m ((c.tc : Thread nD τ).loc main_arg2) : S256x4096x1.Idx → EReal) (ix3 b (pos kp r) (0 : Fin 1)) := by
  have hk := kp.isLt
  refine (featBlk_apply m c (pt m b kp) (ix3 (0 : Fin 1) r (0 : Fin 1)) (ix3 b (pos kp r) (0 : Fin 1)) ?_ ?_ rfl).trans ?_
  · show b.val = (2 * b.val + kp.val) / 2
    omega
  · show kp.val * 2048 + r.val = (2 * b.val + kp.val) % 2 * 2048 + r.val
    have : (2 * b.val + kp.val) % 2 = kp.val := by omega
    rw [this]
  · rw [V_main_arg2]

/-- The plane written back for sample `b`, at cell `(h, w)`, is the dense tensor's cell `(b, h, w)`. -/
theorem plane_eq_dense (c : Dev nD) (b : Fin 256) (h w : Fin 512) :
    planeAt m c (pt m b 1).val (pt m b 1).isLt (ix3 (0 : Fin 1) h w)
      = dense (m ((c.tc : Thread nD τ).loc main_arg0)) (m ((c.tc : Thread nD τ).loc main_arg1))
          (m ((c.tc : Thread nD τ).loc main_arg2)) b h w := by
  have v0 : (pt m b 0).val = 2 * b.val := rfl
  have v1 : (pt m b 1).val = 2 * b.val + 1 := rfl
  have e0 : grid0.coords (pt m b 0) 1 = (0 : Fin 2) := Fin.ext (by rw [(coords_facts _).2, v0]; show _ = 0; omega)
  have e1 : grid0.coords (pt m b 1) 1 = (1 : Fin 2) := Fin.ext (by rw [(coords_facts _).2, v1]; show _ = 1; omega)
  rw [planeAt_odd_apply m c (pt m b 1) (by rw [v1]; omega) h w,
    planeAt_congr m c (show (pt m b 1).val - 1 = (pt m b 0).val from by rw [v0, v1]; omega) _ (pt m b 0).isLt,
    planeAt_even_apply m c (pt m b 0) (by rw [v0]; omega) h w, e0, e1,
    wordAt_eq m c (pt m b 0) b (by rw [v0]; omega), wordAt_eq m c (pt m b 1) b (by rw [v1]; omega)]
  exact tiles_eq_dense _ _ _ b h w (fun kp => iblk m c 0 (pt m b kp)) (fun kp => iblk m c 1 (pt m b kp))
    (fun kp => iblk m c 2 (pt m b kp)) (rowBlk_pt m c b) (colBlk_pt m c b) (featBlk_pt m c b)

/-! ## From the planes to the array -/

/-- Where a cell of a point's plane sits in the output array. -/
theorem plane_emb (t : Fin (cfgM m).N) (b : Fin 256) (hb : b.val = t.val / 2) (h w : Fin 512) :
    (((cfgM m).win 3).blk t).view.emb (ix3 (0 : Fin 1) h w : S1x512x512.Idx) = (ix3 b h w : S256x512x512.Idx) := by
  obtain ⟨e0, e1, e2⟩ := plane_index t
  funext a
  apply Fin.ext
  match a with
  | ⟨0, _⟩ =>
    show cc0_transform_3 (grid0.coords t) 0 * 1 + 1 * 0 = b.val
    rw [e0, hb]; omega
  | ⟨1, _⟩ =>
    show cc0_transform_3 (grid0.coords t) 1 * 512 + 1 * h.val = h.val
    rw [e1]; omega
  | ⟨2, _⟩ =>
    show cc0_transform_3 (grid0.coords t) 2 * 512 + 1 * w.val = w.val
    rw [e2]; omega

/-- A cell of the array is in a point's block when each coordinate is in the block's range on its axis. -/
theorem mem_plane_blk (t : Fin (cfgM m).N) (i : S256x512x512.Idx)
    (hi : ∀ a : Fin 3, cc0_transform_3 (grid0.coords t) a * S1x512x512.size a ≤ (i a).val
      ∧ (i a).val < cc0_transform_3 (grid0.coords t) a * S1x512x512.size a + S1x512x512.size a) :
    i ∈ (((cfgM m).win 3).blk t).view.set := by
  have e : (((cfgM m).win 3).blk t).view.set = (((cfgM m).win 3).rect t).set :=
    View.set_slice_whole main_v4 (((cfgM m).win 3).rect t)
  rw [e]
  exact Rect.mem_set_unit.mpr hi

/-- Reading a block of the output array reads the array at the cell's place. -/
theorem read_plane_blk (G : S256x512x512.Idx → EReal) (t : Fin (cfgM m).N) (x : S1x512x512.Idx) :
    (((cfgM m).win 3).blk t).view.read (Elt Ideal) G x = G ((((cfgM m).win 3).blk t).view.emb x) := rfl

/-- The plane's block is not cut: what is written back is the plane itself. -/
theorem cut_plane (X : S1x512x512.Idx → EReal) (i : grid0.Coords) (x : S1x512x512.Idx) :
    ((cfgM m).win 3).cut i X x = X x := rfl

/-- What the odd point of sample `b` writes back is its block of the dense tensor. -/
theorem flushed_eq (c : Dev nD) (t : Fin (cfgM m).N) (b : Fin 256) (hb : t.val = 2 * b.val + 1) :
    (dats (F := Ideal) m 0 c).flushed 3 t
      = (((cfgM m).win 3).blk t).view.read (Elt Ideal)
          (denseArr (m ((c.tc : Thread nD τ).loc main_arg0)) (m ((c.tc : Thread nD τ).loc main_arg1))
            (m ((c.tc : Thread nD τ).loc main_arg2))) := by
  obtain rfl : t = pt m b 1 := Fin.ext hb
  show ((cfgM m).win 3).cut (grid0.coords (pt m b 1)) ((dats (F := Ideal) m 0 c).after 3 (pt m b 1)) = _
  rw [after3]
  refine funext fun (j : S1x512x512.Idx) => ?_
  obtain ⟨z, h, w, rfl⟩ : ∃ (z : Fin 1) (h w : Fin 512), j = ix3 z h w := ⟨j 0, j 1, j 2, eq_ix3 j⟩
  obtain rfl : z = 0 := Subsingleton.elim _ _
  refine (cut_plane m _ _ (ix3 (0 : Fin 1) h w)).trans ?_
  refine Eq.trans ?_ (read_plane_blk m _ (pt m b 1) (ix3 (0 : Fin 1) h w)).symm
  rw [plane_emb m (pt m b 1) b (by rw [pt_val]; show b.val = (2 * b.val + 1) / 2; omega) h w, denseArr_ix3]
  exact plane_eq_dense m c b h w

/-- The output array after the run, as the proof data computes it, is the dense tensor of the three argument
    arrays as launched. -/
theorem out_eq_dense (c : Dev nD) :
    (dats (F := Ideal) m 0 c).arrAt 3 (cfgM m).N
      = denseArr (m ((c.tc : Thread nD τ).loc main_arg0)) (m ((c.tc : Thread nD τ).loc main_arg1))
          (m ((c.tc : Thread nD τ).loc main_arg2)) := by
  refine (dats (F := Ideal) m 0 c).arrAt_eq_of_cover 3 _ (fun t hf => ?_) (fun (i : S256x512x512.Idx) => ?_)
  · have ht : t.val % 2 = 1 := (flush3 m t).mp hf
    have hN : t.val < 512 := lt_of_lt_of_eq t.isLt N_0
    exact flushed_eq m c t ⟨t.val / 2, by omega⟩ (by show t.val = 2 * (t.val / 2) + 1; omega)
  · obtain ⟨b, h, w, rfl⟩ : ∃ (b : Fin 256) (h w : Fin 512), i = ix3 b h w := ⟨i 0, i 1, i 2, eq_ix3 i⟩
    obtain ⟨e0, e1, e2⟩ := plane_index (pt m b 1)
    have hb := b.isLt
    refine ⟨pt m b 1, (flush3 m _).mpr (by rw [pt_val]; show (2 * b.val + 1) % 2 = 1; omega),
      mem_plane_blk m (pt m b 1) (ix3 b h w) (fun a => ?_)⟩
    match a with
    | ⟨0, _⟩ =>
      show cc0_transform_3 (grid0.coords (pt m b 1)) 0 * 1 ≤ b.val ∧ b.val < cc0_transform_3 (grid0.coords (pt m b 1)) 0 * 1 + 1
      rw [e0, pt_val]
      show (2 * b.val + 1) / 2 * 1 ≤ b.val ∧ b.val < (2 * b.val + 1) / 2 * 1 + 1
      omega
    | ⟨1, _⟩ =>
      show cc0_transform_3 (grid0.coords (pt m b 1)) 1 * 512 ≤ h.val ∧ h.val < cc0_transform_3 (grid0.coords (pt m b 1)) 1 * 512 + 512
      rw [e1]
      have := h.isLt
      omega
    | ⟨2, _⟩ =>
      show cc0_transform_3 (grid0.coords (pt m b 1)) 2 * 512 ≤ w.val ∧ w.val < cc0_transform_3 (grid0.coords (pt m b 1)) 2 * 512 + 512
      rw [e2]
      have := w.isLt
      omega

end Cert.KernelIdeal.HandValue

end
-- ==== Proof.LibNary3.lean ====
/-
  A host operation of THREE operands given as a literal family of references (a concatenation of three
  arrays), read at its result buffer with each operand's contents AT ITS OWN REFERENCE.

  The operation's result is its function applied to the family `k ↦ (contents at the k-th reference)`. Stated
  with that family as a function of `k`, the three references sit under a binder, and a fold over a line of
  operations cannot be carried on into the operands: no operation's result is known at "the k-th of three
  references" for a variable `k`. Stated with the family spelled out — the first reference's contents, the
  second's, the third's, consed together — each operand's contents is a term at a literal reference again
  and the fold goes on through it. The two families are the same function: they agree at 0, 1 and 2.
  For any three references, any element types, any function of the three contents.
-/
import Idealize.ShloMosaic.Lib.StableHlo.Run

noncomputable section

namespace Cert.Lib

open Idealize.ShloMosaic Idealize.ShloMosaic.StableHlo

variable {τ : Topo} {sig : RefSig} {Val : EltTy → Type}
variable {x a b y : Ref sig .tc}

/-- The result of a three-operand operation at its own buffer, the operands' contents spelled out one by one. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference kept out of the rewriting index, so that a single simplification pass
    over a whole line of operations can use it. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.Lib

end
-- ==== Proof.RefRunHand.lean ====
/-
  The reference program runs, and its result buffer ends at the last stage of its fifty host operations.

  @main of the reference is a straight line of host operations on buffers written once each. Every weakly fair
  execution of such a line terminates with every buffer at the fold of the operations over the launch contents.
  What the fold leaves in the result buffer is read in two stretches. The first forty-eight operations leave, in
  the five buffers the last two operations read — the tensor of zeros, the masked features, and the three index
  columns (sample number, row, column) —, exactly the stages the reading module names for them. The last two
  operations join the three columns into one index array and scatter-add the masked features into the zeros: the
  reading module's last two stages, by their definitions. The arguments are written by no operation.
-/
import proofs.«424259_j87522843560476_3_alg».proof.Proof.RefRead
import proofs.«424259_j87522843560476_3_alg».proof.Proof.LibNary3
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The line, cut before its last two operations -/

/-- The first forty-eight operations of @main, in order: everything up to and including the three index columns. -/
abbrev ops1 : List (HloOp τ sig (Elt F)) :=
  [ nullary main_v0 (iotaInDim S4096 32 0),
    unary main_v0 main_v1 (broadcastInDim S1x4096 ![1] bcast_S4096_S1x4096_1 : (⟨S4096, .i32⟩ : BufTy).Contents (Elt F) → (⟨S1x4096, .i32⟩ : BufTy).Contents (Elt F)),
    unary main_arg1 main_v2 (broadcastInDim S256x1 ![0] bcast_S256_S256x1_0 : (⟨S256, .i32⟩ : BufTy).Contents (Elt F) → (⟨S256x1, .i32⟩ : BufTy).Contents (Elt F)),
    unary main_v1 main_v3 (broadcastInDim S256x4096 ![0, 1] bcast_S1x4096_S256x4096_0_1 : (⟨S1x4096, .i32⟩ : BufTy).Contents (Elt F) → (⟨S256x4096, .i32⟩ : BufTy).Contents (Elt F)),
    unary main_v2 main_v4 (broadcastInDim S256x4096 ![0, 1] bcast_S256x1_S256x4096_0_1 : (⟨S256x1, .i32⟩ : BufTy).Contents (Elt F) → (⟨S256x4096, .i32⟩ : BufTy).Contents (Elt F)),
    binary main_v3 main_v4 main_v5 (cmpi .slt : (⟨S256x4096, .i32⟩ : BufTy).Contents (Elt F) → (⟨S256x4096, .i32⟩ : BufTy).Contents (Elt F) → (⟨S256x4096, .i1⟩ : BufTy).Contents (Elt F)),
    reshape main_arg2 main_v6 rfl shapeCasts_S256x4096x1_S256x4096,
    unary main_v5 main_v7 (uitofp .f32 : (⟨S256x4096, .i1⟩ : BufTy).Contents (Elt F) → (⟨S256x4096, .f32⟩ : BufTy).Contents (Elt F)),
    binary main_v6 main_v7 main_v8 (mulf : (⟨S256x4096, .f32⟩ : BufTy).Contents (Elt F) → (⟨S256x4096, .f32⟩ : BufTy).Contents (Elt F) → (⟨S256x4096, .f32⟩ : BufTy).Contents (Elt F)),
    unary main_v5 main_v9 (broadcastInDim S256x4096x1 ![0, 1] bcast_S256x4096_S256x4096x1_0_1 : (⟨S256x4096, .i1⟩ : BufTy).Contents (Elt F) → (⟨S256x4096x1, .i1⟩ : BufTy).Contents (Elt F)),
    nullary main_c (constantI S_ 32 512#32),
    TRef.unary (TRef.of (T := ⟨S_, .i32⟩) main_c) (TRef.of (T := ⟨S_, .i32⟩) main_call0_v0) id,
    TRef.unary (TRef.of (T := ⟨S256x4096x1, .i1⟩) main_v9) (TRef.of (T := ⟨S256x4096x2, .i1⟩) main_call0_v1) (broadcastInDim S256x4096x2 ![0, 1, 2] bcast_S256x4096x1_S256x4096x2_0_1_2),
    TRef.unary (TRef.of (T := ⟨S_, .i32⟩) main_call0_v0) (TRef.of (T := ⟨S256x4096x2, .i32⟩) main_call0_v2) (broadcastInDim S256x4096x2 ![] bcast_S_S256x4096x2),
    TRef.ternary (TRef.of (T := ⟨S256x4096x2, .i1⟩) main_call0_v1) (TRef.of (T := ⟨S256x4096x2, .i32⟩) main_arg0) (TRef.of (T := ⟨S256x4096x2, .i32⟩) main_call0_v2) (TRef.of (T := ⟨S256x4096x2, .i32⟩) main_v10) select,
    nullary main_v11 (iotaInDim S256 32 0),
    unary main_v11 main_v12 (broadcastInDim S256x1 ![0] bcast_S256_S256x1_0 : (⟨S256, .i32⟩ : BufTy).Contents (Elt F) → (⟨S256x1, .i32⟩ : BufTy).Contents (Elt F)),
    unary main_v12 main_v13 (broadcastInDim S256x4096 ![0, 1] bcast_S256x1_S256x4096_0_1 : (⟨S256x1, .i32⟩ : BufTy).Contents (Elt F) → (⟨S256x4096, .i32⟩ : BufTy).Contents (Elt F)),
    nullary main_cst (constant S_ .f32 0x00000000#32),
    unary main_cst main_v14 (broadcastInDim S256x512x512 ![] bcast_S_S256x512x512 : (⟨S_, .f32⟩ : BufTy).Contents (Elt F) → (⟨S256x512x512, .f32⟩ : BufTy).Contents (Elt F)),
    unary main_v10 main_v15 ((extractStridedSlice S256x4096x1 ![0, 0, 0] · slices_S256x4096x2_S256x4096x1_0_0_0) : (⟨S256x4096x2, .i32⟩ : BufTy).Contents (Elt F) → (⟨S256x4096x1, .i32⟩ : BufTy).Contents (Elt F)),
    reshape main_v15 main_v16 rfl shapeCasts_S256x4096x1_S256x4096,
    unary main_v10 main_v17 ((extractStridedSlice S256x4096x1 ![0, 0, 1] · slices_S256x4096x2_S256x4096x1_0_0_1) : (⟨S256x4096x2, .i32⟩ : BufTy).Contents (Elt F) → (⟨S256x4096x1, .i32⟩ : BufTy).Contents (Elt F)),
    reshape main_v17 main_v18 rfl shapeCasts_S256x4096x1_S256x4096,
    nullary main_c_0 (constantI S_ 32 0#32),
    unary main_c_0 main_v19 (broadcastInDim S256x4096 ![] bcast_S_S256x4096 : (⟨S_, .i32⟩ : BufTy).Contents (Elt F) → (⟨S256x4096, .i32⟩ : BufTy).Contents (Elt F)),
    binary main_v13 main_v19 main_v20 (cmpi .slt : (⟨S256x4096, .i32⟩ : BufTy).Contents (Elt F) → (⟨S256x4096, .i32⟩ : BufTy).Contents (Elt F) → (⟨S256x4096, .i1⟩ : BufTy).Contents (Elt F)),
    nullary main_c_1 (constantI S_ 32 256#32),
    unary main_c_1 main_v21 (broadcastInDim S256x4096 ![] bcast_S_S256x4096 : (⟨S_, .i32⟩ : BufTy).Contents (Elt F) → (⟨S256x4096, .i32⟩ : BufTy).Contents (Elt F)),
    binary main_v13 main_v21 main_v22 (addi : (⟨S256x4096, .i32⟩ : BufTy).Contents (Elt F) → (⟨S256x4096, .i32⟩ : BufTy).Contents (Elt F) → (⟨S256x4096, .i32⟩ : BufTy).Contents (Elt F)),
    ternary main_v20 main_v22 main_v13 main_v23 (select : (⟨S256x4096, .i1⟩ : BufTy).Contents (Elt F) → (⟨S256x4096, .i32⟩ : BufTy).Contents (Elt F) → (⟨S256x4096, .i32⟩ : BufTy).Contents (Elt F) → (⟨S256x4096, .i32⟩ : BufTy).Contents (Elt F)),
    nullary main_c_2 (constantI S_ 32 0#32),
    unary main_c_2 main_v24 (broadcastInDim S256x4096 ![] bcast_S_S256x4096 : (⟨S_, .i32⟩ : BufTy).Contents (Elt F) → (⟨S256x4096, .i32⟩ : BufTy).Contents (Elt F)),
    binary main_v16 main_v24 main_v25 (cmpi .slt : (⟨S256x4096, .i32⟩ : BufTy).Contents (Elt F) → (⟨S256x4096, .i32⟩ : BufTy).Contents (Elt F) → (⟨S256x4096, .i1⟩ : BufTy).Contents (Elt F)),
    nullary main_c_3 (constantI S_ 32 512#32),
    unary main_c_3 main_v26 (broadcastInDim S256x4096 ![] bcast_S_S256x4096 : (⟨S_, .i32⟩ : BufTy).Contents (Elt F) → (⟨S256x4096, .i32⟩ : BufTy).Contents (Elt F)),
    binary main_v16 main_v26 main_v27 (addi : (⟨S256x4096, .i32⟩ : BufTy).Contents (Elt F) → (⟨S256x4096, .i32⟩ : BufTy).Contents (Elt F) → (⟨S256x4096, .i32⟩ : BufTy).Contents (Elt F)),
    ternary main_v25 main_v27 main_v16 main_v28 (select : (⟨S256x4096, .i1⟩ : BufTy).Contents (Elt F) → (⟨S256x4096, .i32⟩ : BufTy).Contents (Elt F) → (⟨S256x4096, .i32⟩ : BufTy).Contents (Elt F) → (⟨S256x4096, .i32⟩ : BufTy).Contents (Elt F)),
    nullary main_c_4 (constantI S_ 32 0#32),
    unary main_c_4 main_v29 (broadcastInDim S256x4096 ![] bcast_S_S256x4096 : (⟨S_, .i32⟩ : BufTy).Contents (Elt F) → (⟨S256x4096, .i32⟩ : BufTy).Contents (Elt F)),
    binary main_v18 main_v29 main_v30 (cmpi .slt : (⟨S256x4096, .i32⟩ : BufTy).Contents (Elt F) → (⟨S256x4096, .i32⟩ : BufTy).Contents (Elt F) → (⟨S256x4096, .i1⟩ : BufTy).Contents (Elt F)),
    nullary main_c_5 (constantI S_ 32 512#32),
    unary main_c_5 main_v31 (broadcastInDim S256x4096 ![] bcast_S_S256x4096 : (⟨S_, .i32⟩ : BufTy).Contents (Elt F) → (⟨S256x4096, .i32⟩ : BufTy).Contents (Elt F)),
    binary main_v18 main_v31 main_v32 (addi : (⟨S256x4096, .i32⟩ : BufTy).Contents (Elt F) → (⟨S256x4096, .i32⟩ : BufTy).Contents (Elt F) → (⟨S256x4096, .i32⟩ : BufTy).Contents (Elt F)),
    ternary main_v30 main_v32 main_v18 main_v33 (select : (⟨S256x4096, .i1⟩ : BufTy).Contents (Elt F) → (⟨S256x4096, .i32⟩ : BufTy).Contents (Elt F) → (⟨S256x4096, .i32⟩ : BufTy).Contents (Elt F) → (⟨S256x4096, .i32⟩ : BufTy).Contents (Elt F)),
    unary main_v23 main_v34 (broadcastInDim S256x4096x1 ![0, 1] bcast_S256x4096_S256x4096x1_0_1 : (⟨S256x4096, .i32⟩ : BufTy).Contents (Elt F) → (⟨S256x4096x1, .i32⟩ : BufTy).Contents (Elt F)),
    unary main_v28 main_v35 (broadcastInDim S256x4096x1 ![0, 1] bcast_S256x4096_S256x4096x1_0_1 : (⟨S256x4096, .i32⟩ : BufTy).Contents (Elt F) → (⟨S256x4096x1, .i32⟩ : BufTy).Contents (Elt F)),
    unary main_v33 main_v36 (broadcastInDim S256x4096x1 ![0, 1] bcast_S256x4096_S256x4096x1_0_1 : (⟨S256x4096, .i32⟩ : BufTy).Contents (Elt F) → (⟨S256x4096x1, .i32⟩ : BufTy).Contents (Elt F)) ]

/-- The last two operations: the three index columns joined along a new last axis, then the scatter-add of the masked
    features into the zeros at those indices. -/
abbrev ops2 : List (HloOp τ sig (Elt F)) :=
  [ nary ![main_v34, main_v35, main_v36] main_v37 (fun u => concatenate S256x4096x3 2 [⟨S256x4096x1, u 0⟩, ⟨S256x4096x1, u 1⟩, ⟨S256x4096x1, u 2⟩] concatenates_S256x4096x1_S256x4096x1_S256x4096x1_S256x4096x3_d2),
    ternary main_v14 main_v37 main_v8 main_v38 ((fun x i u => Host.scatterAdd scatter_S256x512x512_S256x4096x3_S256x4096_n_012_012_2 x i u) : (⟨S256x512x512, .f32⟩ : BufTy).Contents (Elt F) → (⟨S256x4096x3, .i32⟩ : BufTy).Contents (Elt F) → (⟨S256x4096, .f32⟩ : BufTy).Contents (Elt F) → (⟨S256x512x512, .f32⟩ : BufTy).Contents (Elt F)) ]

set_option maxRecDepth 8192 in
/-- @main's line is the first stretch followed by the second. -/
theorem ops_split : (ValueP.ops : List (HloOp τ sig (Elt F))) = ops1 ++ ops2 := rfl

/-- The fold over a line cut in two is the fold over the second stretch from what the first stretch leaves. -/
theorem after_two_stretches : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_two_stretches l₁ l₂]

/-- What the first forty-eight operations leave in every buffer, from contents `V`. -/
def W (V : Valuation τ sig (Elt F)) : Valuation τ sig (Elt F) := after ops1 V

/-! ## The five buffers the last two operations read

Each buffer is written once, by an operation whose operands were written before it; followed back through the
first stretch to the arguments, its contents are the composition of those operations, which is what the stage of that
name is by definition. -/

set_option maxRecDepth 8192 in
set_option maxHeartbeats 2000000 in
/-- The tensor of zeros. -/
theorem W_v14 (V : Valuation τ sig (Elt F)) :
    W V (Proc.devRef .tc main_v14) = ReadP.val_main_v14 (F := F) := by
  unfold W
  after_results_simp
  rfl

set_option maxRecDepth 8192 in
set_option maxHeartbeats 2000000 in
/-- The masked features: each point's feature times 1 or 0, as its position is below its sample's count or not. -/
theorem W_v8 (V : Valuation τ sig (Elt F)) :
    W V (Proc.devRef .tc main_v8) = ReadP.val_main_v8 (F := F) (V (Proc.devRef .tc main_arg1)) (V (Proc.devRef .tc main_arg2)) := by
  unfold W
  after_results_simp
  rfl

set_option maxRecDepth 8192 in
set_option maxHeartbeats 2000000 in
/-- The column of sample numbers. -/
theorem W_v34 (V : Valuation τ sig (Elt F)) :
    W V (Proc.devRef .tc main_v34) = ReadP.val_main_v34 (F := F) := by
  unfold W
  after_results_simp
  rfl

set_option maxRecDepth 8192 in
set_option maxHeartbeats 2000000 in
/-- The column of row coordinates — 512 for a padding point, a negative one counted back from the plane's far edge. -/
theorem W_v35 (V : Valuation τ sig (Elt F)) :
    W V (Proc.devRef .tc main_v35) = ReadP.val_main_v35 (F := F) (V (Proc.devRef .tc main_arg0)) (V (Proc.devRef .tc main_arg1)) := by
  unfold W
  after_results_simp
  rfl

set_option maxRecDepth 8192 in
set_option maxHeartbeats 2000000 in
/-- The column of column coordinates, likewise. -/
theorem W_v36 (V : Valuation τ sig (Elt F)) :
    W V (Proc.devRef .tc main_v36) = ReadP.val_main_v36 (F := F) (V (Proc.devRef .tc main_arg0)) (V (Proc.devRef .tc main_arg1)) := by
  unfold W
  after_results_simp
  rfl

/-! ## The result, and the arguments -/

set_option maxRecDepth 8192 in
set_option maxHeartbeats 2000000 in
/-- The whole line leaves the last stage in the result buffer: the last two operations read the five buffers above —
    the join reads each column at its own buffer — and the last two stages are, by definition, the join of the three
    column stages and the scatter-add of the masked-feature stage into the zero stage at the joined indices. -/
theorem result_eq (V : Valuation τ sig (Elt F)) :
    after ValueP.ops V (Proc.devRef .tc main_v38)
      = ReadP.val_main_v38 (F := F) (V (Proc.devRef .tc main_arg0)) (V (Proc.devRef .tc main_arg1))
          (V (Proc.devRef .tc main_arg2)) := by
  rw [ops_split, after_two_stretches]
  change after ops2 (W V) (Proc.devRef .tc main_v38) = _
  simp only [ops2, after_cons, after_nil]
  rw [ternary_result, Cert.Lib.nary3_result, nary_result_ne (h := by decide), nary_result_ne (h := by decide)]
  rw [W_v14, W_v8, W_v34, W_v35, W_v36]
  rfl

set_option maxRecDepth 8192 in
set_option maxHeartbeats 2000000 in
/-- No operation writes the first argument … -/
theorem arg0_kept (V : Valuation τ sig (Elt F)) :
    after ValueP.ops V (Proc.devRef .tc main_arg0) = V (Proc.devRef .tc main_arg0) := by
  after_results_simp <;> rfl

set_option maxRecDepth 8192 in
set_option maxHeartbeats 2000000 in
/-- … nor the second … -/
theorem arg1_kept (V : Valuation τ sig (Elt F)) :
    after ValueP.ops V (Proc.devRef .tc main_arg1) = V (Proc.devRef .tc main_arg1) := by
  after_results_simp <;> rfl

set_option maxRecDepth 8192 in
set_option maxHeartbeats 2000000 in
/-- … nor the third. -/
theorem arg2_kept (V : Valuation τ sig (Elt F)) :
    after ValueP.ops V (Proc.devRef .tc main_arg2) = V (Proc.devRef .tc main_arg2) := by
  after_results_simp <;> rfl

/-- On every device, for any float values, from any memory with zero counters: every weakly fair execution of @main
    terminates with the result buffer at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
          = Cert.ReferenceIdeal.ReadP.val_main_v38 (F := F) (m ((c.tc : Thread nD τ).loc main_arg0))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v38).trans (result_eq (launchContents m c)),
      (h c main_arg0).trans (arg0_kept (launchContents m c)),
      (h c main_arg1).trans (arg1_kept (launchContents m c)),
      (h c main_arg2).trans (arg2_kept (launchContents m c))⟩)
    (run_seq ValueP.scopedRefs_eq ValueP.scopedSems_eq defs main (fun _ => ValueP.ops) ValueP.main_eq
      (fun _ => ValueP.ops_sub) m ρ)

end Cert.ReferenceIdeal.HandRun

end
-- ==== Proof.RefValueLib.lean ====
/-
  Small facts the reference's value is read with, none of them about a particular program: an index of rank one,
  two or three is named by its coordinates; a signed comparison of two 32-bit words is the comparison of their
  signed values, so counting a non-negative coordinate back from a far edge leaves it alone; a number below 4096
  is its own 32-bit word read signed; the one-bit words convert to the numbers one and zero; and a scattered
  update lands at a cell exactly when, on every axis, its start plus its window coordinate is the cell's coordinate.
-/
import Idealize.ShloMosaic.PureOps.Ideal
import Idealize.ShloMosaic.Lib.ValueIdx

noncomputable section

open scoped BigOperators

namespace Cert.Densify.Ref

open Idealize.ShloMosaic Idealize.ShloMosaic.ValueIdx

/-! ## Indices named by their coordinates -/

theorem ix1_of_val {n0 : Nat} (j : (⟨1, ![n0]⟩ : Shape).Idx) (a : Fin n0) (h0 : (j 0).val = a.val) : j = ix1 a := by
  funext d; match d with | ⟨0, _⟩ => exact Fin.ext h0

theorem ix2_of_vals {n0 n1 : Nat} (j : (⟨2, ![n0, n1]⟩ : Shape).Idx) (a : Fin n0) (b : Fin n1)
    (h0 : (j 0).val = a.val) (h1 : (j 1).val = b.val) : j = ix2 a b := by
  funext d; match d with | ⟨0, _⟩ => exact Fin.ext h0 | ⟨1, _⟩ => exact Fin.ext h1

theorem ix3_of_vals {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  funext d; match d with | ⟨0, _⟩ => exact Fin.ext h0 | ⟨1, _⟩ => exact Fin.ext h1 | ⟨2, _⟩ => exact Fin.ext h2

/-! ## Words -/

/-- A signed "less than" on 32-bit words is the bit `1` exactly when the signed values are so ordered. -/
theorem cmpi_slt_eq_one_iff (x y : BitVec 32) : IntOp.cmpi .slt x y = 1#1 ↔ x.toInt < y.toInt := by
  show BitVec.ofBool (x.slt y) = 1#1 ↔ _
  cases hb : x.slt y
  · simp only [BitVec.slt, decide_eq_false_iff_not] at hb
    constructor
    · intro h; exact absurd h (by decide)
    · intro h; exact absurd h hb
  · simp only [BitVec.slt, decide_eq_true_eq] at hb
    exact ⟨fun _ => hb, fun _ => rfl⟩

/-- Counting a coordinate back from the far edge leaves a non-negative one as it is. -/
theorem wrap_of_nonneg (c k : BitVec 32) (h : 0 ≤ c.toInt) :
    Scalar.select (IntOp.cmpi .slt c 0#32) (IntOp.addi c k) c = c := by
  unfold Scalar.select
  rw [if_neg]
  show ¬ (IntOp.cmpi .slt c 0#32 = 1#1)
  rw [cmpi_slt_eq_one_iff]
  simp only [BitVec.toInt_zero]
  omega

/-- A number below 4096, as a 32-bit word read signed, is itself. -/
theorem toInt_ofNat_of_lt (n : Nat) (h : n < 4096) : (BitVec.ofNat 32 n).toInt = (n : Int) := by
  have hm : n % 2 ^ 32 = n := Nat.mod_eq_of_lt (by omega)
  rw [BitVec.toInt_eq_toNat_cond, BitVec.toNat_ofNat, hm, if_pos (by omega)]

theorem toInt_512 : (512#32 : BitVec 32).toInt = 512 := by decide

/-- The bit `1` converts to the number one … -/
theorem uitofp_one : FloatOps.uitofp (F := Ideal) .f32 (1#1 : BitVec 1) = (1 : EReal) := by
  show (((1#1 : BitVec 1).toNat : ℝ) : EReal) = 1
  simp

/-- … and the bit `0` to zero. -/
theorem uitofp_zero : FloatOps.uitofp (F := Ideal) .f32 (0#1 : BitVec 1) = (0 : EReal) := by
  show (((0#1 : BitVec 1).toNat : ℝ) : EReal) = 0
  simp

/-! ## Where a scattered update lands -/

/-- An update lands at cell `i` exactly when, on every axis, its start plus its window coordinate is the cell's
    coordinate: being inside the operand is then automatic, and outside it no cell is named. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · next hc =>
      intro a
      have := congrArg (fun f => ((f a).val : Int)) (Option.some.inj h)
      simp only at this
      have h0 := (hc a).1
      omega
    · exact absurd h (by simp)
  · intro h
    have hc : ∀ a, 0 ≤ d.start j idx a + d.window j a ∧ d.start j idx a + d.window j a < s.size a := fun a => by
      have := (i a).isLt
      rw [h a]; omega
    rw [dif_pos hc]
    congr 1
    funext a
    apply Fin.ext
    show (d.start j idx a + d.window j a).toNat = (i a).val
    rw [h a]; simp

end Cert.Densify.Ref

end
-- ==== Proof.RefValue.lean ====
/-
  The reference's result is the dense tensor, on the domain where every valid point's coordinates are
  non-negative.

  The reference masks the features (`feat * mask`), replaces the coordinates of padding by 512 — a row and a
  column no cell has —, counts a negative coordinate back from the far edge (`c + 512` when `c < 0`), joins
  the sample's number and the two coordinates into one index triple per point and scatter-adds the masked
  features into a tensor of zeros: cell `(b, h, w)` ends at `0` plus the sum of the masked features of the
  points whose triple, read signed and not clamped, is exactly `(b, h, w)`. A valid point with non-negative
  coordinates keeps them, so it lands in its own cell or nowhere; padding lands nowhere.
-/
import proofs.«424259_j87522843560476_3_alg».proof.Proof.Spec
import proofs.«424259_j87522843560476_3_alg».proof.Proof.RefRead
import proofs.«424259_j87522843560476_3_alg».proof.Proof.RefValueLib

noncomputable section

open scoped BigOperators

namespace Cert.Densify.Ref

open Idealize.ShloMosaic Idealize.ShloMosaic.ValueIdx Cert.Densify
open Cert.ReferenceIdeal Cert.ReferenceIdeal.ReadP

/-! ## The reference's intermediate values at a point -/

/-- The validity bit of point `p` of sample `b`: its position compared, signed, with the sample's count. -/
def maskBit (nv : Counts) (b : Fin 256) (p : Fin 4096) : BitVec 1 :=
  IntOp.cmpi .slt (BitVec.ofNat 32 p.val) (nv (ix1 b))

/-- The bit is `1` exactly on the valid points. -/
theorem maskBit_eq_one_iff (nv : Counts) (b : Fin 256) (p : Fin 4096) : maskBit nv b p = 1#1 ↔ Valid nv b p := by
  unfold maskBit Valid
  rw [cmpi_slt_eq_one_iff, toInt_ofNat_of_lt p.val p.isLt]

/-- Coordinate `k` of a point after masking: its own when the point is valid, 512 when it is padding. -/
def sel (idx : Coords) (nv : Counts) (b : Fin 256) (p : Fin 4096) (k : Fin 2) : BitVec 32 :=
  Scalar.select (maskBit nv b p) (idx (ix3 b p k)) 512#32

theorem v5_at (nv : Counts) (b : Fin 256) (p : Fin 4096) :
    val_main_v5 (F := Ideal) nv (ix2 b p) = maskBit nv b p := by
  rw [val_main_v5_apply, val_main_v3_apply, val_main_v1_apply, val_main_v0_apply, val_main_v4_apply, val_main_v2_apply]
  rw [ix1_of_val (idx_main_v2 (idx_main_v4 (ix2 b p))) b rfl]
  rfl

theorem v8_at (nv : Counts) (feat : Feats) (b : Fin 256) (p : Fin 4096) :
    val_main_v8 (F := Ideal) nv feat (ix2 b p)
      = feat (ix3 b p (0 : Fin 1)) * FloatOps.uitofp (F := Ideal) .f32 (maskBit nv b p) := by
  rw [val_main_v8_apply, val_main_v6_apply, val_main_v7_apply, v5_at]
  rw [ix3_of_vals (idx_main_v6 (ix2 b p)) b p 0
    (by show (b.val * 4096 + p.val) / 4096 = b.val; omega)
    (by show (b.val * 4096 + p.val) / 1 % 4096 = p.val; omega) rfl]
  rfl

theorem v10_at (idx : Coords) (nv : Counts) (b : Fin 256) (p : Fin 4096) (k : Fin 2) :
    val_main_v10 (F := Ideal) idx nv (ix3 b p k) = sel idx nv b p k := by
  rw [val_main_v10_apply, val_main_call0_v1_apply, val_main_v9_apply, val_main_call0_v2_apply, val_main_call0_v0_apply,
    val_main_c_apply]
  rw [ix2_of_vals (idx_main_v9 (idx_main_call0_v1 (ix3 b p k))) b p rfl rfl, v5_at]
  rfl

theorem v16_at (idx : Coords) (nv : Counts) (b : Fin 256) (p : Fin 4096) :
    val_main_v16 (F := Ideal) idx nv (ix2 b p) = sel idx nv b p 0 := by
  rw [val_main_v16_apply, val_main_v15_apply]
  rw [ix3_of_vals (idx_main_v15 (idx_main_v16 (ix2 b p))) b p (0 : Fin 2)
    (by show (b.val * 4096 + p.val) / 4096 = b.val; omega)
    (by show (b.val * 4096 + p.val) / 1 % 4096 = p.val; omega) rfl, v10_at]

theorem v18_at (idx : Coords) (nv : Counts) (b : Fin 256) (p : Fin 4096) :
    val_main_v18 (F := Ideal) idx nv (ix2 b p) = sel idx nv b p 1 := by
  rw [val_main_v18_apply, val_main_v17_apply]
  rw [ix3_of_vals (idx_main_v17 (idx_main_v18 (ix2 b p))) b p (1 : Fin 2)
    (by show (b.val * 4096 + p.val) / 4096 = b.val; omega)
    (by show (b.val * 4096 + p.val) / 1 % 4096 = p.val; omega) rfl, v10_at]

/-- A coordinate counted back from the far edge of the 512-wide plane when it is negative. -/
def wrap (c : BitVec 32) : BitVec 32 := Scalar.select (IntOp.cmpi .slt c 0#32) (IntOp.addi c 512#32) c

/-- Column 0 of the index triples: the sample's number (never negative, so left as it is). -/
theorem v34_at (b : Fin 256) (p : Fin 4096) :
    val_main_v34 (F := Ideal) (ix3 b p (0 : Fin 1)) = BitVec.ofNat 32 b.val := by
  rw [val_main_v34_apply, val_main_v23_apply, val_main_v20_apply, val_main_v22_apply, val_main_v19_apply,
    val_main_c_0_apply]
  have h13 : val_main_v13 (F := Ideal) (idx_main_v34 (ix3 b p (0 : Fin 1))) = BitVec.ofNat 32 b.val := by
    rw [val_main_v13_apply, val_main_v12_apply, val_main_v11_apply]
  rw [h13]
  exact wrap_of_nonneg _ _ (by rw [toInt_ofNat_of_lt b.val (by have := b.isLt; omega)]; omega)

/-- Column 1: the masked row coordinate, counted back when negative. -/
theorem v35_at (idx : Coords) (nv : Counts) (b : Fin 256) (p : Fin 4096) :
    val_main_v35 (F := Ideal) idx nv (ix3 b p (0 : Fin 1)) = wrap (sel idx nv b p 0) := by
  rw [val_main_v35_apply, val_main_v28_apply, val_main_v25_apply, val_main_v27_apply, val_main_v24_apply,
    val_main_c_2_apply, val_main_v26_apply, val_main_c_3_apply]
  rw [ix2_of_vals (idx_main_v35 (ix3 b p (0 : Fin 1))) b p rfl rfl, v16_at]
  rfl

/-- Column 2: the masked column coordinate, counted back when negative. -/
theorem v36_at (idx : Coords) (nv : Counts) (b : Fin 256) (p : Fin 4096) :
    val_main_v36 (F := Ideal) idx nv (ix3 b p (0 : Fin 1)) = wrap (sel idx nv b p 1) := by
  rw [val_main_v36_apply, val_main_v33_apply, val_main_v30_apply, val_main_v32_apply, val_main_v29_apply,
    val_main_c_4_apply, val_main_v31_apply, val_main_c_5_apply]
  rw [ix2_of_vals (idx_main_v36 (ix3 b p (0 : Fin 1))) b p rfl rfl, v18_at]
  rfl

section
variable {α : Type}

/-- Three one-wide columns joined along the last axis, read at column 0: the first column. -/
theorem cat3_apply0 (h : Shape.Concatenates [S256x4096x1, S256x4096x1, S256x4096x1] S256x4096x3 2)
    (x y z : S256x4096x1.Idx → α) (b : Fin 256) (p : Fin 4096) :
    concatenate S256x4096x3 2 [⟨S256x4096x1, x⟩, ⟨S256x4096x1, y⟩, ⟨S256x4096x1, z⟩] h (ix3 b p (0 : Fin 3))
      = x (ix3 b p (0 : Fin 1)) :=
  concatenate_apply_piece (t := S256x4096x3) 2 [⟨S256x4096x1, x⟩, ⟨S256x4096x1, y⟩, ⟨S256x4096x1, z⟩] h
    (ix3 b p (0 : Fin 3)) 0 (show (0 : Nat) < 3 by decide) S256x4096x1 x rfl rfl 0 rfl (ix3 b p (0 : Fin 1))
    (fun c hc => match c with
      | ⟨0, _⟩ => rfl
      | ⟨1, _⟩ => rfl
      | ⟨2, _⟩ => absurd rfl hc) rfl

/-- … read at column 1: the second column. -/
theorem cat3_apply1 (h : Shape.Concatenates [S256x4096x1, S256x4096x1, S256x4096x1] S256x4096x3 2)
    (x y z : S256x4096x1.Idx → α) (b : Fin 256) (p : Fin 4096) :
    concatenate S256x4096x3 2 [⟨S256x4096x1, x⟩, ⟨S256x4096x1, y⟩, ⟨S256x4096x1, z⟩] h (ix3 b p (1 : Fin 3))
      = y (ix3 b p (0 : Fin 1)) :=
  concatenate_apply_piece (t := S256x4096x3) 2 [⟨S256x4096x1, x⟩, ⟨S256x4096x1, y⟩, ⟨S256x4096x1, z⟩] h
    (ix3 b p (1 : Fin 3)) 1 (show (1 : Nat) < 3 by decide) S256x4096x1 y rfl rfl 1 rfl (ix3 b p (0 : Fin 1))
    (fun c hc => match c with
      | ⟨0, _⟩ => rfl
      | ⟨1, _⟩ => rfl
      | ⟨2, _⟩ => absurd rfl hc) rfl

/-- … read at column 2: the third column. -/
theorem cat3_apply2 (h : Shape.Concatenates [S256x4096x1, S256x4096x1, S256x4096x1] S256x4096x3 2)
    (x y z : S256x4096x1.Idx → α) (b : Fin 256) (p : Fin 4096) :
    concatenate S256x4096x3 2 [⟨S256x4096x1, x⟩, ⟨S256x4096x1, y⟩, ⟨S256x4096x1, z⟩] h (ix3 b p (2 : Fin 3))
      = z (ix3 b p (0 : Fin 1)) :=
  concatenate_apply_piece (t := S256x4096x3) 2 [⟨S256x4096x1, x⟩, ⟨S256x4096x1, y⟩, ⟨S256x4096x1, z⟩] h
    (ix3 b p (2 : Fin 3)) 2 (show (2 : Nat) < 3 by decide) S256x4096x1 z rfl rfl 2 rfl (ix3 b p (0 : Fin 1))
    (fun c hc => match c with
      | ⟨0, _⟩ => rfl
      | ⟨1, _⟩ => rfl
      | ⟨2, _⟩ => absurd rfl hc) rfl
end

theorem v37_at0 (idx : Coords) (nv : Counts) (b : Fin 256) (p : Fin 4096) :
    val_main_v37 (F := Ideal) idx nv (ix3 b p (0 : Fin 3)) = BitVec.ofNat 32 b.val := by
  unfold val_main_v37; rw [cat3_apply0, v34_at]

theorem v37_at1 (idx : Coords) (nv : Counts) (b : Fin 256) (p : Fin 4096) :
    val_main_v37 (F := Ideal) idx nv (ix3 b p (1 : Fin 3)) = wrap (sel idx nv b p 0) := by
  unfold val_main_v37; rw [cat3_apply1, v35_at]

theorem v37_at2 (idx : Coords) (nv : Counts) (b : Fin 256) (p : Fin 4096) :
    val_main_v37 (F := Ideal) idx nv (ix3 b p (2 : Fin 3)) = wrap (sel idx nv b p 1) := by
  unfold val_main_v37; rw [cat3_apply2, v36_at]

/-- The tensor scattered into is zero everywhere. -/
theorem v14_at (i : S256x512x512.Idx) : val_main_v14 (F := Ideal) i = 0 := by
  rw [val_main_v14_apply, val_main_cst_apply]
  show Ideal.ofBits .f32 0x00000000#32 = 0
  simp [Ideal.ofBits, Ideal.ieee]

/-! ## Where an update lands -/

/-- The reference's scatter: no window axes, every operand axis inserted and named by the index triple. -/
abbrev sd : ScatterDims S256x512x512 S256x4096x3 S256x4096 :=
  scatter_S256x512x512_S256x4096x3_S256x4096_n_012_012_2

theorem sKept_sd : sd.sKept = [] := by decide

/-- No operand axis carries a window coordinate. -/
theorem window_sd (j : S256x4096.Idx) (a : Fin 3) : sd.window j a = 0 := by
  unfold ScatterDims.window
  rw [dif_neg]
  rw [sKept_sd]; exact List.not_mem_nil

/-- Component `c` of point `(b, p)`'s start is read at `(b, p, c)`. -/
theorem siIdx_sd (b : Fin 256) (p : Fin 4096) (c : Fin 3) :
    sd.siIdx (ix2 b p) c = ix3 b p c := by
  funext x
  match x with
  | ⟨0, _⟩ => rfl
  | ⟨1, _⟩ => rfl
  | ⟨2, _⟩ => rfl

/-- The start on operand axis `a` is the index word at `(b, p, a)`, read signed. -/
theorem start_sd (I : IVec S256x4096x3 32) (b : Fin 256) (p : Fin 4096) (a : Fin 3) :
    sd.start (ix2 b p) I a = (I (ix3 b p a)).toInt := by
  unfold ScatterDims.start
  fin_cases a
  · rw [dif_pos (by decide)]; exact congrArg (fun k => (I k).toInt) (siIdx_sd b p 0)
  · rw [dif_pos (by decide)]; exact congrArg (fun k => (I k).toInt) (siIdx_sd b p 1)
  · rw [dif_pos (by decide)]; exact congrArg (fun k => (I k).toInt) (siIdx_sd b p 2)

/-- Point `(b', p)` lands at cell `(b, h, w)` exactly when its index triple, read signed, is `(b, h, w)`. -/
theorem lands_iff (I : IVec S256x4096x3 32) (b' : Fin 256) (p : Fin 4096) (b : Fin 256) (h w : Fin 512) :
    sd.resultIdx? (ix2 b' p) I = some (ix3 b h w) ↔
      (I (ix3 b' p (0 : Fin 3))).toInt = (b.val : Int) ∧ (I (ix3 b' p (1 : Fin 3))).toInt = (h.val : Int)
        ∧ (I (ix3 b' p (2 : Fin 3))).toInt = (w.val : Int) := by
  rw [resultIdx?_eq_some_iff]
  constructor
  · intro H
    have H0 := H 0
    have H1 := H 1
    have H2 := H 2
    rw [start_sd, window_sd, Nat.cast_zero, add_zero] at H0 H1 H2
    exact ⟨H0, H1, H2⟩
  · rintro ⟨h0, h1, h2⟩ a
    rw [start_sd, window_sd, Nat.cast_zero, add_zero]
    fin_cases a
    · exact h0
    · exact h1
    · exact h2

/-! ## One point's update against its contribution -/

/-- What point `(b', p)` adds to cell `(b, h, w)` under the scatter — its masked feature when its triple names the
    cell, else nothing — is its contribution to the dense tensor when `b' = b`, and nothing otherwise. A valid point's
    coordinates are non-negative, so counting back leaves them; padding's masked feature is zero wherever it lands. -/
theorem point (idx : Coords) (nv : Counts) (feat : Feats) (hnn : ValidNonneg idx nv)
    (b' : Fin 256) (p : Fin 4096) (b : Fin 256) (h w : Fin 512)
    (inst : Decidable (sd.resultIdx? (ix2 b' p) (val_main_v37 (F := Ideal) idx nv) = some (ix3 b h w))) :
    @ite _ (sd.resultIdx? (ix2 b' p) (val_main_v37 (F := Ideal) idx nv) = some (ix3 b h w)) inst
        (val_main_v8 (F := Ideal) nv feat (ix2 b' p)) 0
      = if b' = b then contrib idx nv feat b h w p else 0 := by
  by_cases hv : Valid nv b' p
  · have hm : maskBit nv b' p = 1#1 := (maskBit_eq_one_iff nv b' p).2 hv
    have hu : val_main_v8 (F := Ideal) nv feat (ix2 b' p) = feat (ix3 b' p (0 : Fin 1)) := by
      rw [v8_at, hm, uitofp_one, mul_one]
    have hw : ∀ k : Fin 2, wrap (sel idx nv b' p k) = idx (ix3 b' p k) := fun k => by
      have hs : sel idx nv b' p k = idx (ix3 b' p k) := by unfold sel; rw [hm]; exact select_one _ _
      rw [hs]; exact wrap_of_nonneg _ _ (hnn b' p k hv)
    have hP : sd.resultIdx? (ix2 b' p) (val_main_v37 (F := Ideal) idx nv) = some (ix3 b h w)
        ↔ b' = b ∧ Hits idx b' p h w := by
      rw [lands_iff, v37_at0, v37_at1, v37_at2, hw, hw, toInt_ofNat_of_lt b'.val (by have := b'.isLt; omega)]
      unfold Hits
      constructor
      · rintro ⟨e0, e1, e2⟩; exact ⟨Fin.ext (by omega), e1, e2⟩
      · rintro ⟨e0, e1, e2⟩; exact ⟨by rw [e0], e1, e2⟩
    by_cases hb : b' = b
    · subst hb
      rw [if_pos rfl]
      unfold contrib
      by_cases hh : Hits idx b' p h w
      · rw [if_pos (hP.2 ⟨rfl, hh⟩), if_pos ⟨hv, hh⟩, hu]
      · rw [if_neg (fun hp => hh (hP.1 hp).2), if_neg (fun c => hh c.2)]
    · rw [if_neg hb, if_neg (fun hp => hb (hP.1 hp).1)]
  · have hm : maskBit nv b' p = 0#1 := eq_zero_of_ne_one (fun h1 => hv ((maskBit_eq_one_iff nv b' p).1 h1))
    have hu : val_main_v8 (F := Ideal) nv feat (ix2 b' p) = 0 := by
      rw [v8_at, hm, uitofp_zero, mul_zero]
    rw [hu, ite_self]
    by_cases hb : b' = b
    · subst hb
      rw [if_pos rfl]
      unfold contrib
      rw [if_neg (fun c => hv c.1)]
    · rw [if_neg hb]

/-- The reference's last stage, read at cell `(b, h, w)`, is the dense tensor there. -/
theorem ref_eq_dense (idx : Coords) (nv : Counts) (feat : Feats) (hnn : ValidNonneg idx nv)
    (b : Fin 256) (h w : Fin 512) :
    Cert.ReferenceIdeal.ReadP.val_main_v38 (F := Ideal) idx nv feat (ix3 b h w) = dense idx nv feat b h w := by
  show Ideal.hostScatterAdd sd (val_main_v14 (F := Ideal)) (val_main_v37 (F := Ideal) idx nv)
    (val_main_v8 (F := Ideal) nv feat) (ix3 b h w) = _
  unfold Ideal.hostScatterAdd dense
  rw [v14_at, zero_add, Finset.sum_filter, sum_idx2, Finset.sum_eq_single b]
  · exact Finset.sum_congr rfl (fun p _ => by rw [point idx nv feat hnn b p b h w, if_pos rfl])
  · intro b' _ hb
    exact Finset.sum_eq_zero (fun p _ => by rw [point idx nv feat hnn b' p b h w, if_neg hb])
  · intro hb; exact absurd (Finset.mem_univ b) hb

end Cert.Densify.Ref

end
-- ==== Proof.PreDecode.lean ====
/-
  The printed precondition, read: where it is all ones, every valid point's coordinates are non-negative.

  The predicate is the conjunction of two whole-array conjunctions: that every feature is finite (not needed
  by this proof: no law used here asks it), and, over every point `(b, p)` and both coordinates `k`, that the
  point is not valid or its coordinate is at least zero, validity being `p < nv b` as signed words.
-/
import proofs.«424259_j87522843560476_3_alg».proof.Proof.Spec
import proofs.«424259_j87522843560476_3_alg».proof.Proof.Gen.Pre_finite_inputs
import Idealize.ShloMosaic.Lib.ReduceAll
import Idealize.ShloMosaic.Lib.StableHlo.Predicate

noncomputable section

namespace Cert.Densify.Pre

open Idealize.ShloMosaic Idealize.ShloMosaic.ValueIdx Cert.Densify

/-! ## The predicate's six broadcasts, each read at one index

A broadcast reads its operand at the coordinates it keeps, and at `0` on every operand axis of extent one. -/

section Reads
variable {α : Type}
open Cert.Pre_finite_inputs

/-- `[256, 4096, 1] → [256, 4096, 2]`: the last coordinate is forgotten. -/
theorem bcast_pair (h : S256x4096x1.BroadcastsInDim S256x4096x2 ![0, 1, 2]) (x : S256x4096x1.Idx → α)
    (b : Fin 256) (p : Fin 4096) (k : Fin 2) :
    broadcastInDim S256x4096x2 ![0, 1, 2] h x (ix3 b p k) = x (ix3 b p (0 : Fin 1)) := by
  unfold broadcastInDim
  refine congrArg x (funext fun a => ?_)
  match a with
  | ⟨0, _⟩ => rfl
  | ⟨1, _⟩ => rfl
  | ⟨2, _⟩ => rfl

/-- `[1, 4096, 1] → [256, 4096, 1]`: the sample is forgotten. -/
theorem bcast_samples (h : S1x4096x1.BroadcastsInDim S256x4096x1 ![0, 1, 2]) (x : S1x4096x1.Idx → α)
    (b : Fin 256) (p : Fin 4096) :
    broadcastInDim S256x4096x1 ![0, 1, 2] h x (ix3 b p (0 : Fin 1)) = x (ix3 (0 : Fin 1) p (0 : Fin 1)) := by
  unfold broadcastInDim
  refine congrArg x (funext fun a => ?_)
  match a with
  | ⟨0, _⟩ => rfl
  | ⟨1, _⟩ => rfl
  | ⟨2, _⟩ => rfl

/-- `[4096] → [1, 4096, 1]`: the vector lies along the middle axis. -/
theorem bcast_positions (h : S4096.BroadcastsInDim S1x4096x1 ![1]) (v : S4096.Idx → α) (p : Fin 4096) :
    broadcastInDim S1x4096x1 ![1] h v (ix3 (0 : Fin 1) p (0 : Fin 1)) = v (ix1 p) := by
  unfold broadcastInDim
  refine congrArg v (funext fun a => ?_)
  match a with
  | ⟨0, _⟩ => rfl

/-- `[256, 1, 1] → [256, 4096, 1]`: the position is forgotten. -/
theorem bcast_points (h : S256x1x1.BroadcastsInDim S256x4096x1 ![0, 1, 2]) (x : S256x1x1.Idx → α)
    (b : Fin 256) (p : Fin 4096) :
    broadcastInDim S256x4096x1 ![0, 1, 2] h x (ix3 b p (0 : Fin 1)) = x (ix3 b (0 : Fin 1) (0 : Fin 1)) := by
  unfold broadcastInDim
  refine congrArg x (funext fun a => ?_)
  match a with
  | ⟨0, _⟩ => rfl
  | ⟨1, _⟩ => rfl
  | ⟨2, _⟩ => rfl

/-- `[256] → [256, 1, 1]`: the vector lies along the first axis. -/
theorem bcast_counts (h : S256.BroadcastsInDim S256x1x1 ![0]) (v : S256.Idx → α) (b : Fin 256) :
    broadcastInDim S256x1x1 ![0] h v (ix3 b (0 : Fin 1) (0 : Fin 1)) = v (ix1 b) := by
  unfold broadcastInDim
  refine congrArg v (funext fun a => ?_)
  match a with
  | ⟨0, _⟩ => rfl

/-- A scalar broadcast to `[256, 4096, 2]` reads the scalar everywhere. -/
theorem bcast_zero (h : S_.BroadcastsInDim S256x4096x2 ![]) (c : S_.Idx → α) (j : S256x4096x2.Idx) :
    broadcastInDim S256x4096x2 ![] h c j = c ix0 := by
  unfold broadcastInDim
  exact congrArg c (funext fun a => a.elim0)

end Reads

/-- From the printed predicate at all ones to the domain the proof works on. -/
theorem validNonneg_of_pre (idx : Coords) (nv : Counts) (feat : Feats)
    (hpre : Cert.Pre_finite_inputs.fn (F := Ideal) idx nv feat = (fun _ => 1#1)) :
    ValidNonneg idx nv := by
  intro b p k hv
  have h0 := congrFun hpre ix0
  dsimp only [Cert.Pre_finite_inputs.fn] at h0
  have h1 := (IntOp.andi_eq_one.1 h0).2
  haveI : Subsingleton Cert.Pre_finite_inputs.S_.Idx := ⟨fun a b => funext fun d => d.elim0⟩
  have h2 := Host.reduce_andi_all _ _ _ _ _ h1 (ix3 b p k)
  rcases IntOp.ori_eq_one.1 h2 with h3 | h3
  · -- the first disjunct says the point is padding, against `hv`
    exfalso
    rw [bcast_pair] at h3
    simp only [noti, cmpi] at h3
    rw [IntOp.not_eq_one, IntOp.cmpi_slt, bcast_samples, bcast_positions, bcast_points, bcast_counts] at h3
    -- the position word is `p` itself, below 2³¹, so it reads `p` signed
    have e : (iotaInDim Cert.Pre_finite_inputs.S4096 32 0 (ix1 p)).toInt = (p.val : Int) :=
      StableHlo.Predicate.toInt_ofNat_small p.val (by have := p.isLt; omega)
    rw [e] at h3
    exact h3 hv
  · -- the second disjunct is the claim: the coordinate is at least the zero word, read signed
    have h4 := IntOp.cmpi_sge.1 h3
    rw [bcast_zero] at h4
    have z : (0#32 : BitVec 32).toInt = 0 := by decide
    change (0#32 : BitVec 32).toInt ≤ _ at h4
    rw [z] at h4
    exact h4

end Cert.Densify.Pre

end
-- ==== Proof.lean ====
/-
  The certificate: a sparse-to-dense scatter kernel against its jnp reference.

  Both programs turn 256 samples of 4096 points — a pair of coordinates and a feature each, the first `nv b` points
  of sample `b` valid — into a dense tensor `[256, 512, 512]`: cell `(b, h, w)` is the sum of the features of the
  valid points of sample `b` at coordinates `(h, w)`. The kernel does it with two one-hot matrix products per
  sample, one per tile of 2048 points, accumulated in the sample's plane; the reference with one scatter-add.

  They agree where every valid point's coordinates are non-negative, which the precondition states: the reference
  counts a negative coordinate back from the far edge of the plane, the kernel compares it with the cell's number as
  it stands. No law used needs the features finite.

  The three frames: each program runs to the end without a fault and leaves its arguments unchanged — the two kernel
  programs by the frame run of their one region (KbFrame / KiFrame), the reference by its run (RefRunHand). The
  idealization changed no operation, so `preserves` is trivial. The value claim: the kernel's output array after
  the run is the dense tensor (KiValue), and so is the reference's last stage (RefValue, under the decoded
  precondition, PreDecode).
-/
import proofs.«424259_j87522843560476_3_alg».proof.Defs
import proofs.«424259_j87522843560476_3_alg».proof.Proof.Gen.Kernel
import proofs.«424259_j87522843560476_3_alg».proof.Proof.Gen.KernelIdeal
import proofs.«424259_j87522843560476_3_alg».proof.Proof.Gen.ReferenceIdeal
import proofs.«424259_j87522843560476_3_alg».proof.Proof.Gen.Pre_finite_inputs
import proofs.«424259_j87522843560476_3_alg».proof.Proof.KbFrame
import proofs.«424259_j87522843560476_3_alg».proof.Proof.KiFrame
import proofs.«424259_j87522843560476_3_alg».proof.Proof.KiValue
import proofs.«424259_j87522843560476_3_alg».proof.Proof.RefRunHand
import proofs.«424259_j87522843560476_3_alg».proof.Proof.RefValue
import proofs.«424259_j87522843560476_3_alg».proof.Proof.PreDecode
import Idealize.ShloMosaic.Adequacy
import Idealize.ShloMosaic.Init

noncomputable section

namespace Cert.Proof

open Idealize.ShloMosaic Idealize.ShloMosaic.TcCoe Idealize.SL.Sem Cert.Densify

theorem frame_kernel : Cert.frame_Kernel := fun m ρ _ => Cert.Kernel.Hand.frame m ρ

theorem frame_kernelIdeal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.HandRun.run (F := Ideal) m ρ)

/-- The kernel's run, read at the output array and the arguments: the output is the dense tensor of the launched
    arguments, the arguments are unchanged. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v4)
            = denseArr (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c =>
    ⟨((h c).1 3).trans (Cert.KernelIdeal.HandValue.out_eq_dense m c),
     ((h c).2 Cert.KernelIdeal.main_arg0 (by decide : Cert.KernelIdeal.main_arg0 ∈ Pipeline.restRefs Cert.KernelIdeal.sig Cert.KernelIdeal.spec0)).trans (Cert.KernelIdeal.Hand.V_main_arg0 m c),
     ((h c).2 Cert.KernelIdeal.main_arg1 (by decide : Cert.KernelIdeal.main_arg1 ∈ Pipeline.restRefs Cert.KernelIdeal.sig Cert.KernelIdeal.spec0)).trans (Cert.KernelIdeal.Hand.V_main_arg1 m c),
     ((h c).1 2).trans (((Cert.KernelIdeal.Hand.dats m 0 c).arrAt_in 2 rfl _).trans
       ((Cert.KernelIdeal.Hand.A_eq m c 2).trans (Cert.KernelIdeal.Hand.V_main_arg2 m c)))⟩)
    (Cert.KernelIdeal.Hand.run_main m ρ)

theorem algebraic : Cert.algebraic_KernelIdeal_ReferenceIdeal := by
  intro m ρ m' ρ' hpre hagree
  refine ⟨fun c => denseArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), kernel_value m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2]
  exact eq_denseArr _ _ _ _ fun b h w =>
    Cert.Densify.Ref.ref_eq_dense _ _ _ (Cert.Densify.Pre.validNonneg_of_pre _ _ _ (hpre c)) b h w

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
